-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩
abbrev S2000 : Shape := ⟨1, ![2000]⟩
abbrev S2000x1 : Shape := ⟨2, ![2000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x7, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x7, .f32⟩
  | .hbm, ⟨78, _⟩ => ⟨S3300000x7, .f32⟩
  | .hbm, ⟨79, _⟩ => ⟨S3300000x7, .f32⟩
  | .hbm, ⟨80, _⟩ => ⟨S_, .f32⟩
  | .hbm, ⟨81, _⟩ => ⟨S100000x7, .f32⟩
  | .hbm, ⟨82, _⟩ => ⟨S3300000x1, .i32⟩
  | .hbm, ⟨83, _⟩ => ⟨S100000x7, .f32⟩
  | .hbm, ⟨84, _⟩ => ⟨S1x7, .f32⟩
  | .hbm, ⟨85, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x7, .f32⟩
  | .local _ .vmem, ⟨9, _⟩ => ⟨S2000x7, .f32⟩
  | .local _ .vmem, ⟨10, _⟩ => ⟨S2000x7, .f32⟩
  | .local _ .vmem, ⟨11, _⟩ => ⟨S2000x7, .f32⟩
  | .local _ .vmem, ⟨12, _⟩ => ⟨S2000x7, .f32⟩
  | .local _ .vmem, ⟨13, _⟩ => ⟨S1x7, .f32⟩
  | .local _ .vmem, ⟨14, _⟩ => ⟨S2000x7, .f32⟩
  | .local _ .vmem, ⟨15, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S2000x7_S2000x7 : S2000x7.ShapeCasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reduces_S2000x7_S2000 : S2000x7.Reduces [1] S2000
  shapeCasts_S2000_S2000x1 : S2000.ShapeCasts S2000x1
  broadcasts_S2000x1_S2000x7 : S2000x1.Broadcasts S2000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x7.size a ≤ S100000x7.size a
  hwx1_3 : ∀ i : grid1.Coords, EltTy.bits .f32 = 32 ∨ (Rect.block (s := S100000x7) S2000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x7.size a ≤ S100000x7.size a
  hwx2_0 : ∀ i : grid2.Coords, EltTy.bits .f32 = 32 ∨ (Rect.block (s := S100000x7) S2000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S100000x7.size a
  hwx2_2 : ∀ i : grid2.Coords, EltTy.bits .f32 = 32 ∨ (Rect.block (s := S100000x7) S2000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x7, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x7, .f32⟩
  | .hbm, ⟨99, _⟩ => ⟨S100000x7, .f32⟩
  | .hbm, ⟨100, _⟩ => ⟨S100000x7, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x7, .f32⟩
  | .hbm, ⟨106, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.HostStretches.lean ====
/-
  The host operations of the kernel's program between its regions, read as values: what each stretch leaves in the
  buffers a later region or stretch reads, from ANY contents `W` the stretch starts at.  The edge lists (sources %3,
  targets %6) and the edge weights %31 come out of the first stretch as the same functions of the edge array as the
  reference's stages; each aggregation (gather the rows at the sources, weigh, scatter-add at the targets) is the
  reference's stage of the same operations once the array it gathers from is the reference's; a bias vector is recast
  to one row; and a buffer no operation of a stretch writes is left as it was.
-/
import proofs.«148941_j12592844112334_1_alg».proof.Proof.Gen.KernelIdeal.Launch
import proofs.«148941_j12592844112334_1_alg».proof.Proof.RefRead
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The three lists of the first stretch, one after the other. -/
abbrev entry (W : Valuation τ sig (Elt F)) : Valuation τ sig (Elt F) :=
  StableHlo.after hostOps0_2 (StableHlo.after hostOps0_1 (StableHlo.after hostOps0 W))

/-! ## The first stretch: the edge lists and the edge weights -/

theorem entry_v3 (W : Valuation τ sig (Elt F)) :
    entry W (Proc.devRef .tc main_v3) = Cert.ReferenceIdeal.ReadP.val_main_v3 (F := F) (W (Proc.devRef .tc main_arg1)) := by
  after_results_simp
  first | rfl | (simp only [TRef.ofBuf, TRef.toBuf, cast_eq]; rfl)

theorem entry_v6 (W : Valuation τ sig (Elt F)) :
    entry W (Proc.devRef .tc main_v6) = Cert.ReferenceIdeal.ReadP.val_main_v6 (F := F) (W (Proc.devRef .tc main_arg1)) := by
  after_results_simp
  first | rfl | (simp only [TRef.ofBuf, TRef.toBuf, cast_eq]; rfl)

theorem entry_v31 (W : Valuation τ sig (Elt F)) :
    entry W (Proc.devRef .tc main_v31) = Cert.ReferenceIdeal.ReadP.val_main_v31 (F := F) (W (Proc.devRef .tc main_arg1)) := by
  after_results_simp
  first | rfl | (simp only [TRef.ofBuf, TRef.toBuf, cast_eq]; rfl)

theorem entry_keep_main_arg0 (W : Valuation τ sig (Elt F)) : entry W (Proc.devRef .tc main_arg0) = W (Proc.devRef .tc main_arg0) := by
  after_results_simp

theorem entry_keep_main_arg2 (W : Valuation τ sig (Elt F)) : entry W (Proc.devRef .tc main_arg2) = W (Proc.devRef .tc main_arg2) := by
  after_results_simp

theorem entry_keep_main_arg3 (W : Valuation τ sig (Elt F)) : entry W (Proc.devRef .tc main_arg3) = W (Proc.devRef .tc main_arg3) := by
  after_results_simp

theorem entry_keep_main_arg4 (W : Valuation τ sig (Elt F)) : entry W (Proc.devRef .tc main_arg4) = W (Proc.devRef .tc main_arg4) := by
  after_results_simp

theorem entry_keep_main_arg5 (W : Valuation τ sig (Elt F)) : entry W (Proc.devRef .tc main_arg5) = W (Proc.devRef .tc main_arg5) := by
  after_results_simp

/-! ## The second stretch: the first aggregation, and the first bias as one row -/

theorem mid1_v45 (W : Valuation τ sig (Elt F)) (x0 : (⟨S100000x512, .f32⟩ : BufTy).Contents (Elt F))
    (x1 : (⟨S2x3200000, .i32⟩ : BufTy).Contents (Elt F)) (x2 : (⟨S512x16, .f32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h31 : W (Proc.devRef .tc main_v31) = Cert.ReferenceIdeal.ReadP.val_main_v31 (F := F) x1)
    (h32 : W (Proc.devRef .tc main_v32) = Cert.ReferenceIdeal.ReadP.val_main_v32 (F := F) x0 x2) :
    StableHlo.after hostOps1 W (Proc.devRef .tc main_v45) = Cert.ReferenceIdeal.ReadP.val_main_v45 (F := F) x0 x1 x2 := by
  after_results_simp
  rw [h3, h6, h31, h32]
  rfl

theorem mid1_v46 (W : Valuation τ sig (Elt F)) :
    StableHlo.after hostOps1 W (Proc.devRef .tc main_v46) = shapeCast S1x16 (W (Proc.devRef .tc main_arg3)) shapeCasts_S16_S1x16 := by
  after_results_simp
  rfl

theorem mid1_keep_main_v3 (W : Valuation τ sig (Elt F)) : StableHlo.after hostOps1 W (Proc.devRef .tc main_v3) = W (Proc.devRef .tc main_v3) := by
  after_results_simp

theorem mid1_keep_main_v6 (W : Valuation τ sig (Elt F)) : StableHlo.after hostOps1 W (Proc.devRef .tc main_v6) = W (Proc.devRef .tc main_v6) := by
  after_results_simp

theorem mid1_keep_main_v31 (W : Valuation τ sig (Elt F)) : StableHlo.after hostOps1 W (Proc.devRef .tc main_v31) = W (Proc.devRef .tc main_v31) := by
  after_results_simp

theorem mid1_keep_main_arg4 (W : Valuation τ sig (Elt F)) : StableHlo.after hostOps1 W (Proc.devRef .tc main_arg4) = W (Proc.devRef .tc main_arg4) := by
  after_results_simp

theorem mid1_keep_main_arg5 (W : Valuation τ sig (Elt F)) : StableHlo.after hostOps1 W (Proc.devRef .tc main_arg5) = W (Proc.devRef .tc main_arg5) := by
  after_results_simp

/-! ## The third stretch: the second aggregation, and the second bias as one row -/

theorem mid2_v60 (W : Valuation τ sig (Elt F)) (x0 : (⟨S100000x512, .f32⟩ : BufTy).Contents (Elt F))
    (x1 : (⟨S2x3200000, .i32⟩ : BufTy).Contents (Elt F)) (x2 : (⟨S512x16, .f32⟩ : BufTy).Contents (Elt F))
    (x3 : (⟨S16, .f32⟩ : BufTy).Contents (Elt F)) (x4 : (⟨S16x7, .f32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h31 : W (Proc.devRef .tc main_v31) = Cert.ReferenceIdeal.ReadP.val_main_v31 (F := F) x1)
    (h47 : W (Proc.devRef .tc main_v47) = Cert.ReferenceIdeal.ReadP.val_main_v50 (F := F) x0 x1 x2 x3 x4) :
    StableHlo.after hostOps2 W (Proc.devRef .tc main_v60) = Cert.ReferenceIdeal.ReadP.val_main_v63 (F := F) x0 x1 x2 x3 x4 := by
  after_results_simp
  rw [h3, h6, h31, h47]
  rfl

theorem mid2_v61 (W : Valuation τ sig (Elt F)) :
    StableHlo.after hostOps2 W (Proc.devRef .tc main_v61) = shapeCast S1x7 (W (Proc.devRef .tc main_arg5)) shapeCasts_S7_S1x7 := by
  after_results_simp
  rfl

end Cert.KernelIdeal.HostValue

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDenseRows.lean ====
/-
  The dense layers of a two-layer graph convolution with linear residuals, as whole-array functions over the
  extended reals, for any sizes.

  With x an [A, K] matrix, w a [K, C] matrix, r a one-row matrix [1, C] and a, d matrices [A, C]:
    lin x w       (p, q) = sum over k < K of x (p, k) * w (k, q)          -- the product x·w
    affine x w r  (p, q) = lin x w (p, q) + r (0, q)                       -- x·w + r, r repeated down the rows
    rect a r d    (p, q) = max (a (p, q) + r (0, q)) 0 + d (p, q)          -- relu (a + r) + d
  Each depends on row p of its row-indexed operands only, so a block of rows of the result is the same function of
  the same block of rows of the operands ('lin_rows', 'affine_rows', 'rect_rows').

  A kernel body computes them on a block: a matrix-unit product of the operands narrowed to bf16 into a zero
  accumulator is 'lin' (narrowing is the identity on the extended reals); a one-row matrix recast to its own shape and
  broadcast down the rows, added, gives 'affine'; the maximum against the splat of zero and the residual give 'rect'.
  The host computes them on the whole arrays: dot_general is 'lin'.
-/
import Idealize.ShloMosaic.Lib.ValueIdx
import Idealize.ShloMosaic.Lib.Pipeline.Value
import Idealize.ShloMosaic.PureOps.Ideal.Laws
import proofs.«148941_j12592844112334_1_alg».proof.Proof.LibMatmul
import proofs.«148941_j12592844112334_1_alg».proof.Proof.LibColToRow
import proofs.«148941_j12592844112334_1_alg».proof.Proof.LibLayout

noncomputable section

namespace Cert.Gcn

open Idealize.ShloMosaic Idealize.ShloMosaic.ValueIdx

/-- An [A, C] matrix of extended reals. -/
abbrev Mat (A C : Nat) : Type := (⟨2, ![A, C]⟩ : Shape).Idx → EReal

variable {A B K C : Nat}

/-- The product x·w. -/
def lin (x : Mat A K) (w : Mat K C) : Mat A C :=
  fun i => ∑ k : Fin K, x (ix2 (i 0 : Fin A) k) * w (ix2 k (i 1 : Fin C))

/-- x·w + r, the one row r repeated down the rows. -/
def affine (x : Mat A K) (w : Mat K C) (r : Mat 1 C) : Mat A C :=
  fun i => lin x w i + r (ix2 (0 : Fin 1) (i 1 : Fin C))

/-- relu (a + r) + d, the one row r repeated down the rows. -/
def rect (a : Mat A C) (r : Mat 1 C) (d : Mat A C) : Mat A C :=
  fun i => max (a i + r (ix2 (0 : Fin 1) (i 1 : Fin C))) 0 + d i

theorem lin_apply (x : Mat A K) (w : Mat K C) (p : Fin A) (q : Fin C) :
    lin x w (ix2 p q) = ∑ k : Fin K, x (ix2 p k) * w (ix2 k q) := rfl

theorem affine_apply (x : Mat A K) (w : Mat K C) (r : Mat 1 C) (p : Fin A) (q : Fin C) :
    affine x w r (ix2 p q) = (∑ k : Fin K, x (ix2 p k) * w (ix2 k q)) + r (ix2 (0 : Fin 1) q) := rfl

theorem rect_apply (a : Mat A C) (r : Mat 1 C) (d : Mat A C) (p : Fin A) (q : Fin C) :
    rect a r d (ix2 p q) = max (a (ix2 p q) + r (ix2 (0 : Fin 1) q)) 0 + d (ix2 p q) := rfl

/-! ## Rows: a block of rows of the result from the same block of rows of the operands -/

/-- Rows `ρ p` of the big product are the product of those rows. -/
theorem lin_rows (X : Mat A K) (W : Mat K C) (xb : Mat B K) (wb : Mat K C) (ρ : Fin B → Fin A)
    (hx : ∀ p k, xb (ix2 p k) = X (ix2 (ρ p) k)) (hw : ∀ k q, wb (ix2 k q) = W (ix2 k q)) (p : Fin B) (q : Fin C) :
    lin xb wb (ix2 p q) = lin X W (ix2 (ρ p) q) := by
  rw [lin_apply, lin_apply]
  exact Finset.sum_congr rfl fun k _ => by rw [hx p k, hw k q]

theorem affine_rows (X : Mat A K) (W : Mat K C) (R : Mat 1 C) (xb : Mat B K) (wb : Mat K C) (rb : Mat 1 C) (ρ : Fin B → Fin A)
    (hx : ∀ p k, xb (ix2 p k) = X (ix2 (ρ p) k)) (hw : ∀ k q, wb (ix2 k q) = W (ix2 k q))
    (hr : ∀ q, rb (ix2 (0 : Fin 1) q) = R (ix2 (0 : Fin 1) q)) (p : Fin B) (q : Fin C) :
    affine xb wb rb (ix2 p q) = affine X W R (ix2 (ρ p) q) := by
  rw [affine_apply, affine_apply, hr q]
  exact congrArg (· + R (ix2 (0 : Fin 1) q)) (Finset.sum_congr rfl fun k _ => by rw [hx p k, hw k q])

theorem rect_rows (Aa : Mat A C) (R : Mat 1 C) (D : Mat A C) (ab : Mat B C) (rb : Mat 1 C) (db : Mat B C) (ρ : Fin B → Fin A)
    (ha : ∀ p q, ab (ix2 p q) = Aa (ix2 (ρ p) q)) (hr : ∀ q, rb (ix2 (0 : Fin 1) q) = R (ix2 (0 : Fin 1) q))
    (hd : ∀ p q, db (ix2 p q) = D (ix2 (ρ p) q)) (p : Fin B) (q : Fin C) :
    rect ab rb db (ix2 p q) = rect Aa R D (ix2 (ρ p) q) := by
  rw [rect_apply, rect_apply, ha p q, hr q, hd p q]

/-! ## The kernel's spelling, on a block -/

/-- A matrix-unit product into the zero accumulator is the product (whatever formats the operands were narrowed to). -/
theorem matmul_eq_lin {φ₁ φ₂ : FTy} (l : FVec Ideal ⟨2, ![A, K]⟩ φ₁) (r : FVec Ideal ⟨2, ![K, C]⟩ φ₂) :
    FloatOps.matmul (DotDims.plain A K C) none l r (constant ⟨2, ![A, C]⟩ .f32 0x00000000#32) = lin l r := by
  funext i
  obtain ⟨p, q, rfl⟩ : ∃ (p : Fin A) (q : Fin C), i = ix2 p q := ⟨i 0, i 1, eq_ix2 i⟩
  exact Cert.Lib.Matmul.matmul_zero_apply none l r p q

/-- The product plus a one-row matrix recast to its own shape and broadcast down the rows. -/
theorem addRow_eq_affine (m : FVec Ideal ⟨2, ![A, C]⟩ .f32) (x : Mat A K) (w : Mat K C) (hm : m = lin x w)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) :
    addf m (broadcastTo ⟨2, ![A, C]⟩ (shapeCast ⟨2, ![1, C]⟩ r hs) hb) = affine x w r := by
  subst hm
  funext i
  obtain ⟨p, q, rfl⟩ : ∃ (p : Fin A) (q : Fin C), i = ix2 p q := ⟨i 0, i 1, eq_ix2 i⟩
  rw [shapeCast_self]
  show lin x w (ix2 p q) + broadcastTo ⟨2, ![A, C]⟩ r hb (ix2 p q) = _
  rw [Cert.Lib.ColToRow.bcastRowMat_apply r hb p q]
  rfl

/-- relu (a + r) + d in the kernel's spelling: every operand recast to its own shape, the row broadcast down, the maximum
    against the splat of the zero word, the residual added. -/
theorem body_eq_rect (a d : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    addf (maximumf (addf (shapeCast ⟨2, ![A, C]⟩ a ha) (broadcastTo ⟨2, ![A, C]⟩ (shapeCast ⟨2, ![1, C]⟩ r hs) hb))
        (broadcast ⟨2, ![A, C]⟩ (Scalar.ofBits (F := Ideal) .f32 0x00000000#32))) (shapeCast ⟨2, ![A, C]⟩ d ha)
      = rect a r d := by
  funext i
  obtain ⟨p, q, rfl⟩ : ∃ (p : Fin A) (q : Fin C), i = ix2 p q := ⟨i 0, i 1, eq_ix2 i⟩
  rw [shapeCast_self, shapeCast_self, shapeCast_self]
  show max (a (ix2 p q) + broadcastTo ⟨2, ![A, C]⟩ r hb (ix2 p q)) (Ideal.ofBits .f32 0x00000000#32) + d (ix2 p q) = _
  rw [Cert.Lib.ColToRow.bcastRowMat_apply r hb p q, Ideal.ofBits_zero_f32]
  rfl

/-! ## The host's spelling, on the whole arrays -/

/-- The host's dot_general is the product. -/
theorem dotGeneral_eq_lin {φ₁ φ₂ : FTy} (sched : HostSchedule) (l : FVec Ideal ⟨2, ![A, K]⟩ φ₁) (r : FVec Ideal ⟨2, ![K, C]⟩ φ₂) :
    FloatOps.dotGeneral (DotDims.plain A K C) none sched l r = lin l r := by
  funext i
  obtain ⟨p, q, rfl⟩ : ∃ (p : Fin A) (q : Fin C), i = ix2 p q := ⟨i 0, i 1, eq_ix2 i⟩
  exact Cert.Lib.Matmul.dotGeneral_apply none sched l r p q

/-- The host's x·w + r: dot_general plus the one row spread over the rows by broadcast_in_dim. -/
theorem host_affine (sched : HostSchedule) (l : FVec Ideal ⟨2, ![A, K]⟩ .f32) (r : FVec Ideal ⟨2, ![K, C]⟩ .f32)
    (R : FVec Ideal ⟨2, ![1, C]⟩ .f32) (hb : (⟨2, ![1, C]⟩ : Shape).BroadcastsInDim ⟨2, ![A, C]⟩ ![0, 1]) :
    addf (FloatOps.dotGeneral (DotDims.plain A K C) none sched l r) (broadcastInDim ⟨2, ![A, C]⟩ ![0, 1] hb R) = affine l r R := by
  funext i
  obtain ⟨p, q, rfl⟩ : ∃ (p : Fin A) (q : Fin C), i = ix2 p q := ⟨i 0, i 1, eq_ix2 i⟩
  show FloatOps.dotGeneral (DotDims.plain A K C) none sched l r (ix2 p q) + broadcastInDim ⟨2, ![A, C]⟩ ![0, 1] hb R (ix2 p q) = _
  rw [Cert.Lib.Matmul.dotGeneral_apply none sched l r p q,
    broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl)]
  rfl

/-- The host's relu (a + r) + d: the one row spread over the rows, the maximum against the spread zero, the residual. -/
theorem host_rect (a d : FVec Ideal ⟨2, ![A, C]⟩ .f32) (R : FVec Ideal ⟨2, ![1, C]⟩ .f32)
    (hb : (⟨2, ![1, C]⟩ : Shape).BroadcastsInDim ⟨2, ![A, C]⟩ ![0, 1])
    (hz : (⟨0, ![]⟩ : Shape).BroadcastsInDim ⟨2, ![A, C]⟩ ![]) :
    addf (maximumf (addf a (broadcastInDim ⟨2, ![A, C]⟩ ![0, 1] hb R))
        (broadcastInDim ⟨2, ![A, C]⟩ ![] hz (constant (F := Ideal) ⟨0, ![]⟩ .f32 0x00000000#32))) d = rect a R d := by
  funext i
  obtain ⟨p, q, rfl⟩ : ∃ (p : Fin A) (q : Fin C), i = ix2 p q := ⟨i 0, i 1, eq_ix2 i⟩
  show max (a (ix2 p q) + broadcastInDim ⟨2, ![A, C]⟩ ![0, 1] hb R (ix2 p q))
      (broadcastInDim ⟨2, ![A, C]⟩ ![] hz (constant (F := Ideal) ⟨0, ![]⟩ .f32 0x00000000#32) (ix2 p q)) + d (ix2 p q) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl),
    broadcastInDim_apply ![] hz (constant (F := Ideal) ⟨0, ![]⟩ .f32 0x00000000#32) (ix2 p q) ix0 (fun a => a.elim0)]
  show max (a (ix2 p q) + R (ix2 (0 : Fin 1) q)) (Ideal.ofBits .f32 0x00000000#32) + d (ix2 p q) = _
  rw [Ideal.ofBits_zero_f32]
  rfl

/-- A vector laid out as one row in two ways, by a recast and by a broadcast along the new axis: the same row. -/
theorem rowCast_eq_rowBcast {α : Type} (v : (⟨1, ![C]⟩ : Shape).Idx → α)
    (h1 : (⟨1, ![C]⟩ : Shape).ShapeCasts ⟨2, ![1, C]⟩) (h2 : (⟨1, ![C]⟩ : Shape).BroadcastsInDim ⟨2, ![1, C]⟩ ![1]) :
    shapeCast ⟨2, ![1, C]⟩ v h1 = broadcastInDim ⟨2, ![1, C]⟩ ![1] h2 v := by
  funext i
  obtain ⟨z, q, rfl⟩ : ∃ (z : Fin 1) (q : Fin C), i = ix2 z q := ⟨i 0, i 1, eq_ix2 i⟩
  rw [Cert.Lib.Layout.rowCast_apply v h1 z q,
    broadcastInDim_apply ![1] h2 v (ix2 z q) (ix1 q) (fun a => by
      match a with
      | ⟨0, _⟩ =>
        show q.val = if C = 1 then 0 else q.val
        split
        · have := q.isLt; omega
        · rfl)]

end Cert.Gcn

end
-- ==== Proof.Region0.lean ====
/-
  The first region (the projection x·w1, 2000 rows a point): its result array as ONE function of the arrays it reads.

  The grid has fifty points. At point t the body reads rows 2000·t … 2000·t + 1999 of x (all 512 columns) and the whole
  of w1, multiplies them, and the product — a [2000, 16] block — is written back to rows 2000·t … 2000·t + 1999 of the
  result. Row p of a product depends on row p of the left operand only, so that block is those rows of x·w1; the fifty
  row ranges fill [0, 100000), so the result array ends holding x·w1.
-/
import proofs.«148941_j12592844112334_1_alg».proof.Proof.Gen.KernelIdeal.Frame
import proofs.«148941_j12592844112334_1_alg».proof.Proof.LibDenseRows

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

namespace Proj1

/-! ## The body on a block -/

/-- The printed contraction record is the plain one: rows by columns, no batch. -/
theorem proj1_dims : dot_S2000x512_S512x16_S2000x16_1_0_0_1_n_n = DotDims.plain 2000 512 16 := rfl

/-- The body's value on a block: both operands narrowed, multiplied into a zero accumulator — the product. -/
theorem proj1_block (x0 : Vec Ideal S2000x512 .f32) (x1 : Vec Ideal S512x16 .f32) :
    k0_pay1 (F := Ideal) x0 x1 = Cert.Gcn.lin x0 x1 := by
  unfold k0_pay1
  exact Cert.Gcn.matmul_eq_lin _ _

/-- A block of rows of a product, index by index: where the left block's row p is row ρ p of X and the right block is
    W, the block's entry (j₀, j₁) is entry (ρ j₀, j₁) of X·W. -/
theorem lin_block {A B K C : Nat} (X : Cert.Gcn.Mat A K) (W : Cert.Gcn.Mat K C) (xb : Cert.Gcn.Mat B K) (wb : Cert.Gcn.Mat K C)
    (ρ : Fin B → Fin A) (hx : ∀ p k, xb (ix2 p k) = X (ix2 (ρ p) k)) (hw : ∀ k q, wb (ix2 k q) = W (ix2 k q))
    (j : (⟨2, ![B, C]⟩ : Shape).Idx) (i : (⟨2, ![A, C]⟩ : Shape).Idx)
    (h0 : (i 0 : Fin A) = ρ (j 0)) (h1 : (i 1 : Fin C) = j 1) :
    Cert.Gcn.lin xb wb j = Cert.Gcn.lin X W i := by
  obtain ⟨p, q, rfl⟩ : ∃ (p : Fin B) (q : Fin C), j = ix2 p q := ⟨j 0, j 1, eq_ix2 j⟩
  have hi : i = ix2 (ρ p) q := by
    rw [eq_ix2 i]
    exact congrArg₂ ix2 h0 h1
  rw [hi]
  exact Cert.Gcn.lin_rows X W xb wb ρ hx hw p q

/-! ## Where each window's block sits -/

theorem origin2 : (![0, 0] : Fin 2 → Nat) = fun _ => 0 := funext fun a => by fin_cases a <;> rfl

/-- The grid has fifty points. -/
theorem points_eq : cfg0.N = 50 := by decide

/-- The block indices over the grid: x's and the result's blocks are block t of the rows and the one block of the
    columns; w1's is its one block. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p of point t's block is row 2000·t + p of the array. -/
def rowOf (t : Fin cfg0.N) (p : Fin 2000) : Fin 100000 :=
  ⟨2000 * t.val + p.val, by have ht : t.val < 50 := lt_of_lt_of_eq t.isLt points_eq; have := p.isLt; omega⟩

/-- Point t's block of x: rows 2000·t + p of x, every column. -/
theorem xblock_apply (c : Dev nD) (t : Fin cfg0.N) (p : Fin 2000) (k : Fin 512) :
    (iblk0 V c 0 t : Cert.Gcn.Mat 2000 512) (ix2 p k) = (V c main_arg0 : Cert.Gcn.Mat 100000 512) (ix2 (rowOf t p) k) := by
  obtain ⟨e0, e1, -⟩ := block_indices t
  show V c main_arg0 (((cfg0.win 0).blk t).view.emb (ix2 p k)) = V c main_arg0 (ix2 (rowOf t p) k)
  congr 1
  funext a; apply Fin.ext
  match a with
  | ⟨0, _⟩ => show win0_0.index t (0 : Fin 2) * 2000 + 1 * p.val = 2000 * t.val + p.val; omega
  | ⟨1, _⟩ => show win0_0.index t (1 : Fin 2) * 512 + 1 * k.val = k.val; omega

/-- Point t's block of w1: the whole of w1. -/
theorem wblock_apply (c : Dev nD) (t : Fin cfg0.N) (k : Fin 512) (q : Fin 16) :
    (iblk0 V c 1 t : Cert.Gcn.Mat 512 16) (ix2 k q) = (V c main_arg2 : Cert.Gcn.Mat 512 16) (ix2 k q) := by
  obtain ⟨-, -, e2, e3, -⟩ := block_indices t
  show V c main_arg2 (((cfg0.win 1).blk t).view.emb (ix2 k q)) = V c main_arg2 (ix2 k q)
  congr 1
  funext a; apply Fin.ext
  match a with
  | ⟨0, _⟩ => show win0_1.index t (0 : Fin 2) * 512 + 1 * k.val = k.val; omega
  | ⟨1, _⟩ => show win0_1.index t (1 : Fin 2) * 16 + 1 * q.val = q.val; omega

/-! ## What a point writes back -/

/-- What point t writes back is block t of the product of the two arrays as the region finds them. -/
theorem written_eq (c : Dev nD) (t : Fin cfg0.N) :
    (dat0 V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x16) origin2]
  rw [proj1_block]
  obtain ⟨-, -, -, -, e4, e5⟩ := block_indices t
  funext j
  show Cert.Gcn.lin (iblk0 V c 0 t) (iblk0 V c 1 t) j
    = Cert.Gcn.lin (V c main_arg0) (V c main_arg2) (((cfg0.win 2).blk t).view.emb j)
  refine lin_block _ _ _ _ (rowOf t) (xblock_apply V c t) (wblock_apply V c t) j _ ?_ ?_
  · apply Fin.ext
    show win0_2.index t (0 : Fin 2) * 2000 + 1 * (j 0).val = 2000 * t.val + (j 0).val
    omega
  · apply Fin.ext
    show win0_2.index t (1 : Fin 2) * 16 + 1 * (j 1).val = (j 1).val
    omega

/-! ## The blocks fill the array -/

/-- An index of the result is in point t's block iff each coordinate is in the block's range on its axis. -/
theorem mem_block (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v32).slice (win0_2.rect t)).set ↔ _
  rw [View.set_slice_whole, Rect.mem_set_unit]
  exact Iff.rfl

/-- Row r of the result is in the block of point r / 2000 (50 · 2000 = 100000 rows in all), and that point writes back. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hlt : (i 0).val / 2000 < cfg0.N := by rw [points_eq]; omega
  obtain ⟨-, -, -, -, e4, e5⟩ := block_indices ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 16 ≤ (i 1).val
      ∧ (i 1).val < win0_2.index ⟨(i 0).val / 2000, hlt⟩ (1 : Fin 2) * 16 + 16
    omega

end Proj1

/-! ## The array -/

/-- The first region's result array after its fifty points: the product of the two arrays it read, whatever the
    contents `V` the region was entered at. -/
theorem final0 (c : Dev nD) :
    (dat0 V c).arrAt 2 cfg0.N = Cert.Gcn.lin (V c main_arg0) (V c main_arg2) :=
  (dat0 V c).arrAt_eq_of_cover 2 (Cert.Gcn.lin (V c main_arg0) (V c main_arg2))
    (fun t _ => Proj1.written_eq V c t) Proj1.covered

end Cert.KernelIdeal.RegionValue

end
-- ==== Proof.LibBiasRelu.lean ====
/-
  relu (a + r) with r a one-row matrix repeated down the rows, as a whole-array function over the extended reals, for
  any sizes (a general lemma: nothing here depends on a program).

    biasRelu a r (p, q) = max (a (p, q) + r (0, q)) 0

  It depends on row p of a only, so a block of rows of the result is the same function of the same block of rows of a
  ('biasRelu_rows').  A kernel body computes it on a block (every operand recast to its own shape, the row broadcast
  down, the maximum against the splat of the zero word); the host computes it on the whole array (the row spread by
  broadcast_in_dim, the maximum against the spread zero constant).
-/
import Idealize.ShloMosaic.Lib.ValueIdx
import Idealize.ShloMosaic.Lib.Pipeline.Value
import Idealize.ShloMosaic.PureOps.Ideal.Laws
import proofs.«148941_j12592844112334_1_alg».proof.Proof.LibDenseRows

noncomputable section

namespace Cert.Gcn

open Idealize.ShloMosaic Idealize.ShloMosaic.ValueIdx

variable {A B C : Nat}

/-- relu (a + r), the one row r repeated down the rows. -/
def biasRelu (a : Mat A C) (r : Mat 1 C) : Mat A C :=
  fun i => max (a i + r (ix2 (0 : Fin 1) (i 1 : Fin C))) 0

theorem biasRelu_apply (a : Mat A C) (r : Mat 1 C) (p : Fin A) (q : Fin C) :
    biasRelu a r (ix2 p q) = max (a (ix2 p q) + r (ix2 (0 : Fin 1) q)) 0 := rfl

/-- Rows `ρ p` of the big array's relu (a + r) are the relu (a + r) of those rows. -/
theorem biasRelu_rows (Aa : Mat A C) (R : Mat 1 C) (ab : Mat B C) (rb : Mat 1 C) (ρ : Fin B → Fin A)
    (ha : ∀ p q, ab (ix2 p q) = Aa (ix2 (ρ p) q)) (hr : ∀ q, rb (ix2 (0 : Fin 1) q) = R (ix2 (0 : Fin 1) q))
    (p : Fin B) (q : Fin C) :
    biasRelu ab rb (ix2 p q) = biasRelu Aa R (ix2 (ρ p) q) := by
  rw [biasRelu_apply, biasRelu_apply, ha p q, hr q]

/-- The kernel's spelling on a block: both operands recast to their own shapes, the row broadcast down, the maximum
    against the splat of the zero word. -/
theorem kernel_biasRelu (a : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    maximumf (addf (shapeCast ⟨2, ![A, C]⟩ a ha) (broadcastTo ⟨2, ![A, C]⟩ (shapeCast ⟨2, ![1, C]⟩ r hs) hb))
        (broadcast ⟨2, ![A, C]⟩ (Scalar.ofBits (F := Ideal) .f32 0x00000000#32))
      = biasRelu a r := by
  funext i
  obtain ⟨p, q, rfl⟩ : ∃ (p : Fin A) (q : Fin C), i = ix2 p q := ⟨i 0, i 1, eq_ix2 i⟩
  rw [shapeCast_self, shapeCast_self]
  show max (a (ix2 p q) + broadcastTo ⟨2, ![A, C]⟩ r hb (ix2 p q)) (Ideal.ofBits .f32 0x00000000#32) = _
  rw [Cert.Lib.ColToRow.bcastRowMat_apply r hb p q, Ideal.ofBits_zero_f32]
  rfl

/-- The host's spelling on the whole array: the row spread over the rows by broadcast_in_dim, the maximum against the
    spread zero constant. -/
theorem host_biasRelu (a : FVec Ideal ⟨2, ![A, C]⟩ .f32) (R : FVec Ideal ⟨2, ![1, C]⟩ .f32)
    (hb : (⟨2, ![1, C]⟩ : Shape).BroadcastsInDim ⟨2, ![A, C]⟩ ![0, 1])
    (hz : (⟨0, ![]⟩ : Shape).BroadcastsInDim ⟨2, ![A, C]⟩ ![]) :
    maximumf (addf a (broadcastInDim ⟨2, ![A, C]⟩ ![0, 1] hb R))
        (broadcastInDim ⟨2, ![A, C]⟩ ![] hz (constant (F := Ideal) ⟨0, ![]⟩ .f32 0x00000000#32))
      = biasRelu a R := by
  funext i
  obtain ⟨p, q, rfl⟩ : ∃ (p : Fin A) (q : Fin C), i = ix2 p q := ⟨i 0, i 1, eq_ix2 i⟩
  show max (a (ix2 p q) + broadcastInDim ⟨2, ![A, C]⟩ ![0, 1] hb R (ix2 p q))
      (broadcastInDim ⟨2, ![A, C]⟩ ![] hz (constant (F := Ideal) ⟨0, ![]⟩ .f32 0x00000000#32) (ix2 p q)) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl),
    broadcastInDim_apply ![] hz (constant (F := Ideal) ⟨0, ![]⟩ .f32 0x00000000#32) (ix2 p q) ix0 (fun a => a.elim0)]
  show max (a (ix2 p q) + R (ix2 (0 : Fin 1) q)) (Ideal.ofBits .f32 0x00000000#32) = _
  rw [Ideal.ofBits_zero_f32]
  rfl

end Cert.Gcn

end
-- ==== Proof.Region1.lean ====
/-
  The second region (bias, relu and the projection ·w2, 2000 rows a point): its result array as ONE function of the arrays it reads.

  The grid has fifty points. At point t the body reads rows 2000·t … 2000·t + 1999 of a (all 16 columns), the one row b1
  and the whole of w2; it adds b1 to every row, takes the maximum against zero, and multiplies by w2. The product — a
  [2000, 7] block — is written back to rows 2000·t … 2000·t + 1999 of the result. Row p of relu (a + b1) depends on row p
  of a only, and row p of a product on row p of the left operand only, so that block is those rows of relu (a + b1)·w2;
  the fifty row ranges fill [0, 100000), so the result array ends holding relu (a + b1)·w2.
-/
import proofs.«148941_j12592844112334_1_alg».proof.Proof.Gen.KernelIdeal.Frame
import proofs.«148941_j12592844112334_1_alg».proof.Proof.LibDenseRows
import proofs.«148941_j12592844112334_1_alg».proof.Proof.LibBiasRelu

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

namespace Proj2

/-! ## The body on a block -/

/-- The printed contraction record is the plain one: rows by columns, no batch. -/
theorem proj2_dims : dot_S2000x16_S16x7_S2000x7_1_0_0_1_n_n = DotDims.plain 2000 16 7 := rfl

/-- The body's value on a block: the row added to every row of the block, the maximum against zero, then both operands
    narrowed and multiplied into a zero accumulator — relu (a + b1) times w2. -/
theorem proj2_block (x0 : Vec Ideal S2000x16 .f32) (x1 : Vec Ideal S1x16 .f32) (x2 : Vec Ideal S16x7 .f32) :
    k1_pay1 (F := Ideal) x0 x1 x2 = Cert.Gcn.lin (Cert.Gcn.biasRelu x0 x1) x2 := by
  unfold k1_pay1
  rw [← Cert.Gcn.kernel_biasRelu x0 x1 shapeCasts_S2000x16_S2000x16 shapeCasts_S1x16_S1x16 broadcasts_S1x16_S2000x16]
  exact Cert.Gcn.matmul_eq_lin _ _

/-- Rows of relu (a + r)·w: where the left block's row p is row ρ p of the big a, and the one row and the right operand
    are the big ones whole, row p of the block's relu (a + r)·w is row ρ p of the big one. First the rows of relu (a + r),
    then the rows of the product over them. -/
theorem hidden_rows {A B K C : Nat} (Aa : Cert.Gcn.Mat A K) (R : Cert.Gcn.Mat 1 K) (W : Cert.Gcn.Mat K C)
    (ab : Cert.Gcn.Mat B K) (rb : Cert.Gcn.Mat 1 K) (wb : Cert.Gcn.Mat K C) (ρ : Fin B → Fin A)
    (ha : ∀ p k, ab (ix2 p k) = Aa (ix2 (ρ p) k)) (hr : ∀ k, rb (ix2 (0 : Fin 1) k) = R (ix2 (0 : Fin 1) k))
    (hw : ∀ k q, wb (ix2 k q) = W (ix2 k q)) (p : Fin B) (q : Fin C) :
    Cert.Gcn.lin (Cert.Gcn.biasRelu ab rb) wb (ix2 p q) = Cert.Gcn.lin (Cert.Gcn.biasRelu Aa R) W (ix2 (ρ p) q) :=
  Cert.Gcn.lin_rows (Cert.Gcn.biasRelu Aa R) W (Cert.Gcn.biasRelu ab rb) wb ρ
    (Cert.Gcn.biasRelu_rows Aa R ab rb ρ ha hr) hw p q

/-! ## Where each window's block sits -/

/-- The origin of a two-axis block. -/
theorem origin : (![0, 0] : Fin 2 → Nat) = fun _ => 0 := funext fun a => by fin_cases a <;> rfl

/-- The grid has fifty points. -/
theorem fifty : cfg1.N = 50 := by decide

/-- The block indices over the grid: a's and the result's blocks are block t of the rows and the one block of the
    columns; b1's and w2's are their one block. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Row p of point t's block is row 2000·t + p of the array. -/
def bigRow (t : Fin cfg1.N) (p : Fin 2000) : Fin 100000 :=
  ⟨2000 * t.val + p.val, by have ht : t.val < 50 := lt_of_lt_of_eq t.isLt fifty; have := p.isLt; omega⟩

/-- Point t's block of a: rows 2000·t + p of a, every column. -/
theorem a_block (c : Dev nD) (t : Fin cfg1.N) (p : Fin 2000) (k : Fin 16) :
    (iblk1 V c 0 t : Cert.Gcn.Mat 2000 16) (ix2 p k) = (V c main_v45 : Cert.Gcn.Mat 100000 16) (ix2 (bigRow t p) k) := by
  obtain ⟨e0, e1, -⟩ := block_indices t
  show V c main_v45 (((cfg1.win 0).blk t).view.emb (ix2 p k)) = V c main_v45 (ix2 (bigRow t p) k)
  congr 1
  funext a; apply Fin.ext
  match a with
  | ⟨0, _⟩ => show win1_0.index t (0 : Fin 2) * 2000 + 1 * p.val = 2000 * t.val + p.val; omega
  | ⟨1, _⟩ => show win1_0.index t (1 : Fin 2) * 16 + 1 * k.val = k.val; omega

/-- Point t's block of b1: the one row, whole. -/
theorem b1_block (c : Dev nD) (t : Fin cfg1.N) (k : Fin 16) :
    (iblk1 V c 1 t : Cert.Gcn.Mat 1 16) (ix2 (0 : Fin 1) k) = (V c main_v46 : Cert.Gcn.Mat 1 16) (ix2 (0 : Fin 1) k) := by
  obtain ⟨-, -, e2, e3, -⟩ := block_indices t
  show V c main_v46 (((cfg1.win 1).blk t).view.emb (ix2 (0 : Fin 1) k)) = V c main_v46 (ix2 (0 : Fin 1) k)
  congr 1
  funext a; apply Fin.ext
  match a with
  | ⟨0, _⟩ => show win1_1.index t (0 : Fin 2) * 1 + 1 * 0 = 0; omega
  | ⟨1, _⟩ => show win1_1.index t (1 : Fin 2) * 16 + 1 * k.val = k.val; omega

/-- Point t's block of w2: the whole of w2. -/
theorem w2_block (c : Dev nD) (t : Fin cfg1.N) (k : Fin 16) (q : Fin 7) :
    (iblk1 V c 2 t : Cert.Gcn.Mat 16 7) (ix2 k q) = (V c main_arg4 : Cert.Gcn.Mat 16 7) (ix2 k q) := by
  obtain ⟨-, -, -, -, e4, e5, -⟩ := block_indices t
  show V c main_arg4 (((cfg1.win 2).blk t).view.emb (ix2 k q)) = V c main_arg4 (ix2 k q)
  congr 1
  funext a; apply Fin.ext
  match a with
  | ⟨0, _⟩ => show win1_2.index t (0 : Fin 2) * 16 + 1 * k.val = k.val; omega
  | ⟨1, _⟩ => show win1_2.index t (1 : Fin 2) * 7 + 1 * q.val = q.val; omega

/-! ## What a point writes back -/

/-- What point t writes back is block t of relu (a + b1)·w2 of the three arrays as the region finds them. -/
theorem written_eq (c : Dev nD) (t : Fin cfg1.N) :
    (dat1 V c).flushed 3 t
      = ((cfg1.win 3).blk t).view.read (Elt Ideal)
          (Cert.Gcn.lin (Cert.Gcn.biasRelu (V c main_v45) (V c main_v46)) (V c main_arg4)) := by
  show (cfg1.win 3).cut (grid1.coords t) ((dat1 V c).after 3 t) = _
  rw [after1_3]
  unfold out1_3
  rw [View.canon_unit_zero origin]
  simp only [View.ld_unit_zero (S := S2000x16) origin, View.ld_unit_zero (S := S1x16) origin,
    View.ld_unit_zero (S := S16x7) origin]
  rw [proj2_block]
  obtain ⟨-, -, -, -, -, -, e6, e7⟩ := block_indices t
  funext j
  show Cert.Gcn.lin (Cert.Gcn.biasRelu (iblk1 V c 0 t) (iblk1 V c 1 t)) (iblk1 V c 2 t) j
    = Cert.Gcn.lin (Cert.Gcn.biasRelu (V c main_v45) (V c main_v46)) (V c main_arg4) (((cfg1.win 3).blk t).view.emb j)
  have hj : j = ix2 (j 0 : Fin 2000) (j 1 : Fin 7) := eq_ix2 j
  have hi : ((cfg1.win 3).blk t).view.emb j = ix2 (bigRow t (j 0)) (j 1 : Fin 7) := by
    funext a; apply Fin.ext
    match a with
    | ⟨0, _⟩ => show win1_3.index t (0 : Fin 2) * 2000 + 1 * (j 0).val = 2000 * t.val + (j 0).val; omega
    | ⟨1, _⟩ => show win1_3.index t (1 : Fin 2) * 7 + 1 * (j 1).val = (j 1).val; omega
  rw [hi, hj]
  exact hidden_rows _ _ _ _ _ _ (bigRow t) (a_block V c t) (b1_block V c t) (w2_block V c t) (j 0) (j 1)

/-! ## The blocks fill the array -/

/-- An index of the result is in point t's block iff each coordinate is in the block's range on its axis. -/
theorem mem_block (t : Fin cfg1.N) (i : S100000x7.Idx) :
    i ∈ ((cfg1.win 3).blk t).view.set ↔ ∀ a : Fin 2, win1_3.index t a * S2000x7.size a ≤ (i a).val
      ∧ (i a).val < win1_3.index t a * S2000x7.size a + S2000x7.size a := by
  show i ∈ ((View.whole main_v47).slice (win1_3.rect t)).set ↔ _
  rw [View.set_slice_whole, Rect.mem_set_unit]
  exact Iff.rfl

/-- Row r of the result is in the block of point r / 2000 (50 · 2000 = 100000 rows in all), and that point writes back. -/
theorem covered (i : S100000x7.Idx) :
    ∃ t : Fin cfg1.N, (cfg1.win 3).flush t = true ∧ i ∈ ((cfg1.win 3).blk t).view.set := by
  have hr : (i 0).val < 100000 := (i 0).isLt
  have hq : (i 1).val < 7 := (i 1).isLt
  have hlt : (i 0).val / 2000 < cfg1.N := by rw [fifty]; omega
  obtain ⟨-, -, -, -, -, -, e6, e7⟩ := block_indices ⟨(i 0).val / 2000, hlt⟩
  have e6' : win1_3.index ⟨(i 0).val / 2000, hlt⟩ (0 : Fin 2) = (i 0).val / 2000 := e6
  refine ⟨⟨(i 0).val / 2000, hlt⟩, flush1_3 _, ?_⟩
  rw [mem_block]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    omega
  | ⟨1, _⟩ =>
    show win1_3.index ⟨(i 0).val / 2000, hlt⟩ (1 : Fin 2) * 7 ≤ (i 1).val
      ∧ (i 1).val < win1_3.index ⟨(i 0).val / 2000, hlt⟩ (1 : Fin 2) * 7 + 7
    omega

end Proj2

/-! ## The array -/

/-- The second region's result array after its fifty points: relu (a + b1) · w2 of the three arrays it read, whatever
    the contents `V` the region was entered at. -/
theorem final1 (c : Dev nD) :
    (dat1 V c).arrAt 3 cfg1.N
      = Cert.Gcn.lin (Cert.Gcn.biasRelu (V c main_v45) (V c main_v46)) (V c main_arg4) :=
  (dat1 V c).arrAt_eq_of_cover 3 (Cert.Gcn.lin (Cert.Gcn.biasRelu (V c main_v45) (V c main_v46)) (V c main_arg4))
    (fun t _ => Proj2.written_eq V c t) Proj2.covered

end Cert.KernelIdeal.RegionValue

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«148941_j12592844112334_1_alg».proof.Proof.LibLayoutCol
import proofs.«148941_j12592844112334_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.LibLogSoftmaxRows.lean ====
/-
  The row-wise log-softmax of a matrix plus a one-row bias, as a whole-array function over the extended reals, for any
  sizes (a general lemma: nothing here depends on a program).

    addRow a r (p, q)   = a (p, q) + r (0, q)
    rowMax z p          = the maximum of row p of z, folded from -inf
    logSoftmax z (p, q) = (z (p, q) - rowMax z p) - log (sum over k of exp (z (p, k) - rowMax z p))

  Each depends on row p only, so a block of rows of the result is the same function of the same block of rows
  ('logSoftmax_addRow_rows').  A kernel body computes it on a block with lane reductions kept as columns; the host
  computes it on the whole array with reduce and broadcast_in_dim, and takes one more maximum against -inf, which
  changes nothing.
-/
import Idealize.ShloMosaic.Lib.ValueIdx
import Idealize.ShloMosaic.Lib.Pipeline.Value
import Idealize.ShloMosaic.PureOps.Ideal.Laws
import proofs.«148941_j12592844112334_1_alg».proof.Proof.LibDenseRows
import proofs.«148941_j12592844112334_1_alg».proof.Proof.LibAxisSum
import proofs.«148941_j12592844112334_1_alg».proof.Proof.LibLayoutCol
import proofs.«148941_j12592844112334_1_alg».proof.Proof.LibColSum

noncomputable section

namespace Cert.Gcn

open Idealize.ShloMosaic Idealize.ShloMosaic.ValueIdx

variable {A B C : Nat}

/-- a + r, the one row r repeated down the rows. -/
def addRow (a : Mat A C) (r : Mat 1 C) : Mat A C :=
  fun i => a i + r (ix2 (0 : Fin 1) (i 1 : Fin C))

/-- The maximum of row p, folded from -inf. -/
def rowMax (z : Mat A C) (p : Fin A) : EReal :=
  (Finset.univ : Finset (Fin C)).fold max ⊥ fun k => z (ix2 p k)

/-- The row-wise log-softmax, shifted by the row's maximum. -/
def logSoftmax (z : Mat A C) : Mat A C :=
  fun i => (z i - rowMax z (i 0)) - Ideal.log (∑ k : Fin C, Ideal.exp (z (ix2 (i 0 : Fin A) k) - rowMax z (i 0)))

theorem addRow_apply (a : Mat A C) (r : Mat 1 C) (p : Fin A) (q : Fin C) :
    addRow a r (ix2 p q) = a (ix2 p q) + r (ix2 (0 : Fin 1) q) := rfl

theorem logSoftmax_apply (z : Mat A C) (p : Fin A) (q : Fin C) :
    logSoftmax z (ix2 p q)
      = (z (ix2 p q) - rowMax z p) - Ideal.log (∑ k : Fin C, Ideal.exp (z (ix2 p k) - rowMax z p)) := rfl

/-- Rows `ρ p` of the big array's log-softmax of a + r are the log-softmax of those rows of a, plus r. -/
theorem logSoftmax_addRow_rows (Z : Mat A C) (R : Mat 1 C) (zb : Mat B C) (rb : Mat 1 C) (ρ : Fin B → Fin A)
    (hz : ∀ p k, zb (ix2 p k) = Z (ix2 (ρ p) k)) (hr : ∀ q, rb (ix2 (0 : Fin 1) q) = R (ix2 (0 : Fin 1) q))
    (p : Fin B) (q : Fin C) :
    logSoftmax (addRow zb rb) (ix2 p q) = logSoftmax (addRow Z R) (ix2 (ρ p) q) := by
  have hrow : ∀ k, addRow zb rb (ix2 p k) = addRow Z R (ix2 (ρ p) k) := fun k => by
    rw [addRow_apply, addRow_apply, hz p k, hr k]
  have hmax : rowMax (addRow zb rb) p = rowMax (addRow Z R) (ρ p) :=
    congrArg ((Finset.univ : Finset (Fin C)).fold max ⊥) (funext hrow)
  rw [logSoftmax_apply, logSoftmax_apply, hmax, hrow q]
  exact congrArg (fun s => addRow Z R (ix2 (ρ p) q) - rowMax (addRow Z R) (ρ p) - Ideal.log s)
    (Finset.sum_congr rfl fun k _ => by rw [hrow k])

/-- The f32 word of -inf is the bottom of the extended reals. -/
theorem ofBits_negInf_f32 : Ideal.ofBits .f32 0xFF800000#32 = ⊥ := by simp [Ideal.ofBits, Ideal.ieee]

/-! ## The kernel's spelling, on a block -/

/-- Both operands recast to their own shapes, the row broadcast down the rows and added: a + r. -/
theorem kernel_addRow (a : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    addf (shapeCast ⟨2, ![A, C]⟩ a ha) (broadcastTo ⟨2, ![A, C]⟩ (shapeCast ⟨2, ![1, C]⟩ r hs) hb) = addRow a r := by
  funext i
  obtain ⟨p, q, rfl⟩ : ∃ (p : Fin A) (q : Fin C), i = ix2 p q := ⟨i 0, i 1, eq_ix2 i⟩
  rw [shapeCast_self, shapeCast_self]
  show a (ix2 p q) + broadcastTo ⟨2, ![A, C]⟩ r hb (ix2 p q) = _
  rw [Cert.Lib.ColToRow.bcastRowMat_apply r hb p q]
  rfl

/-- The maximum along each row from -inf: the reduction over axis 1, at p, is the row's maximum. -/
theorem rowMaxRed_apply (z : FVec Ideal ⟨2, ![A, C]⟩ .f32) (h : (⟨2, ![A, C]⟩ : Shape).Reduces [1] ⟨1, ![A]⟩)
    (hφ : FKind.Formats .f32) (hacc : (0xFF800000#32 : BitVec 32) = FKind.maximumf.neutral .f32 hφ) (p : Fin A) :
    multiReduction .maximumf [1] ⟨1, ![A]⟩ z 0xFF800000#32 h hφ hacc (ix1 p) = rowMax z p := by
  rw [Ideal.multiReduction_maximumf_single]
  show (Finset.univ : Finset (Fin C)).fold max (Ideal.ofBits .f32 0xFF800000#32) (z ∘ h.lift (ix1 p)) = _
  rw [ofBits_negInf_f32]
  refine congrArg ((Finset.univ : Finset (Fin C)).fold max ⊥) (funext fun k => congrArg z ?_)
  funext a
  match a with
  | ⟨0, _⟩ => rfl
  | ⟨1, _⟩ => rfl

/-- The row maxima kept as a column and broadcast over the columns: at (p, q) the maximum of row p. -/
theorem rowMaxCol_apply (z : FVec Ideal ⟨2, ![A, C]⟩ .f32) (h : (⟨2, ![A, C]⟩ : Shape).Reduces [1] ⟨1, ![A]⟩)
    (hφ : FKind.Formats .f32) (hacc : (0xFF800000#32 : BitVec 32) = FKind.maximumf.neutral .f32 hφ)
    (hcol : (⟨1, ![A]⟩ : Shape).ShapeCasts ⟨2, ![A, 1]⟩) (hbc : (⟨2, ![A, 1]⟩ : Shape).Broadcasts ⟨2, ![A, C]⟩)
    (p : Fin A) (q : Fin C) :
    broadcastTo ⟨2, ![A, C]⟩ (shapeCast ⟨2, ![A, 1]⟩
      (multiReduction .maximumf [1] ⟨1, ![A]⟩ z 0xFF800000#32 h hφ hacc) hcol) hbc (ix2 p q) = rowMax z p :=
  (Cert.Lib.LayoutCol.bcastCol_apply _ hcol hbc p q).trans (rowMaxRed_apply z h hφ hacc p)

/-- The log-softmax of a block in the kernel's spelling: the row maxima and the row sums of exponentials by lane
    reductions kept as columns. -/
theorem kernel_logSoftmax_of (z : FVec Ideal ⟨2, ![A, C]⟩ .f32)
    (hred : (⟨2, ![A, C]⟩ : Shape).Reduces [1] ⟨1, ![A]⟩)
    (hcol : (⟨1, ![A]⟩ : Shape).ShapeCasts ⟨2, ![A, 1]⟩) (hbc : (⟨2, ![A, 1]⟩ : Shape).Broadcasts ⟨2, ![A, C]⟩) :
    subf
      (subf z
        (broadcastTo ⟨2, ![A, C]⟩ (shapeCast ⟨2, ![A, 1]⟩
          (multiReduction .maximumf [1] ⟨1, ![A]⟩ z 0xFF800000#32 hred (.inl rfl) rfl) hcol) hbc))
      (broadcastTo ⟨2, ![A, C]⟩ (log (shapeCast ⟨2, ![A, 1]⟩
        (multiReduction .add [1] ⟨1, ![A]⟩
          (exp (subf z
            (broadcastTo ⟨2, ![A, C]⟩ (shapeCast ⟨2, ![A, 1]⟩
              (multiReduction .maximumf [1] ⟨1, ![A]⟩ z 0xFF800000#32 hred (.inl rfl) rfl) hcol) hbc)))
          0x00000000#32 hred (.inl rfl) rfl) hcol)) hbc)
      = logSoftmax z := by
  have hm : broadcastTo ⟨2, ![A, C]⟩ (shapeCast ⟨2, ![A, 1]⟩
      (multiReduction .maximumf [1] ⟨1, ![A]⟩ z 0xFF800000#32 hred (.inl rfl) rfl) hcol) hbc
      = fun i => rowMax z (i 0) := by
    funext i
    obtain ⟨p, q, rfl⟩ : ∃ (p : Fin A) (q : Fin C), i = ix2 p q := ⟨i 0, i 1, eq_ix2 i⟩
    exact rowMaxCol_apply z hred (.inl rfl) rfl hcol hbc p q
  rw [hm]
  funext i
  obtain ⟨p, q, rfl⟩ : ∃ (p : Fin A) (q : Fin C), i = ix2 p q := ⟨i 0, i 1, eq_ix2 i⟩
  show (z (ix2 p q) - rowMax z p)
      - broadcastTo ⟨2, ![A, C]⟩ (log (shapeCast ⟨2, ![A, 1]⟩
          (multiReduction .add [1] ⟨1, ![A]⟩ (exp (subf z fun i => rowMax z (i 0))) 0x00000000#32 hred (.inl rfl) rfl) hcol))
          hbc (ix2 p q) = _
  rw [Cert.Lib.ColSum.bcastColMat_apply _ hbc p q]
  show (z (ix2 p q) - rowMax z p)
      - Ideal.log (shapeCast ⟨2, ![A, 1]⟩
          (multiReduction .add [1] ⟨1, ![A]⟩ (exp (subf z fun i => rowMax z (i 0))) 0x00000000#32 hred (.inl rfl) rfl) hcol
          (ix2 p (0 : Fin 1))) = _
  rw [Cert.Lib.ColSum.rowSumCol_apply _ hred (.inl rfl) rfl hcol p 0]
  rfl

/-- The kernel's spelling on a block: both operands recast to their own shapes, the row broadcast down and added; the
    row maxima by a lane reduction from -inf, kept as a column and broadcast; the shifted values' exponentials summed by
    a lane reduction from zero, kept as a column, their logarithm broadcast and subtracted. -/
theorem kernel_logSoftmax (a : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩)
    (hred : (⟨2, ![A, C]⟩ : Shape).Reduces [1] ⟨1, ![A]⟩)
    (hcol : (⟨1, ![A]⟩ : Shape).ShapeCasts ⟨2, ![A, 1]⟩) (hbc : (⟨2, ![A, 1]⟩ : Shape).Broadcasts ⟨2, ![A, C]⟩) :
    subf
      (subf (addf (shapeCast ⟨2, ![A, C]⟩ a ha) (broadcastTo ⟨2, ![A, C]⟩ (shapeCast ⟨2, ![1, C]⟩ r hs) hb))
        (broadcastTo ⟨2, ![A, C]⟩ (shapeCast ⟨2, ![A, 1]⟩
          (multiReduction .maximumf [1] ⟨1, ![A]⟩
            (addf (shapeCast ⟨2, ![A, C]⟩ a ha) (broadcastTo ⟨2, ![A, C]⟩ (shapeCast ⟨2, ![1, C]⟩ r hs) hb))
            0xFF800000#32 hred (.inl rfl) rfl) hcol) hbc))
      (broadcastTo ⟨2, ![A, C]⟩ (log (shapeCast ⟨2, ![A, 1]⟩
        (multiReduction .add [1] ⟨1, ![A]⟩
          (exp (subf (addf (shapeCast ⟨2, ![A, C]⟩ a ha) (broadcastTo ⟨2, ![A, C]⟩ (shapeCast ⟨2, ![1, C]⟩ r hs) hb))
            (broadcastTo ⟨2, ![A, C]⟩ (shapeCast ⟨2, ![A, 1]⟩
              (multiReduction .maximumf [1] ⟨1, ![A]⟩
                (addf (shapeCast ⟨2, ![A, C]⟩ a ha) (broadcastTo ⟨2, ![A, C]⟩ (shapeCast ⟨2, ![1, C]⟩ r hs) hb))
                0xFF800000#32 hred (.inl rfl) rfl) hcol) hbc)))
          0x00000000#32 hred (.inl rfl) rfl) hcol)) hbc)
      = logSoftmax (addRow a r) := by
  rw [kernel_addRow a r ha hs hb]
  exact kernel_logSoftmax_of (addRow a r) hred hcol hbc

/-! ## The host's spelling, on the whole array -/

/-- The one row spread over the rows by broadcast_in_dim and added: a + r. -/
theorem host_addRow (a : FVec Ideal ⟨2, ![A, C]⟩ .f32) (R : FVec Ideal ⟨2, ![1, C]⟩ .f32)
    (hb : (⟨2, ![1, C]⟩ : Shape).BroadcastsInDim ⟨2, ![A, C]⟩ ![0, 1]) :
    addf a (broadcastInDim ⟨2, ![A, C]⟩ ![0, 1] hb R) = addRow a R := by
  funext i
  obtain ⟨p, q, rfl⟩ : ∃ (p : Fin A) (q : Fin C), i = ix2 p q := ⟨i 0, i 1, eq_ix2 i⟩
  show a (ix2 p q) + broadcastInDim ⟨2, ![A, C]⟩ ![0, 1] hb R (ix2 p q) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl)]
  rfl

/-- A vector spread to one column [A, 1], at (p, 0), is the vector at p. -/
theorem hostCol_apply {α : Type} (v : (⟨1, ![A]⟩ : Shape).Idx → α)
    (hcol : (⟨1, ![A]⟩ : Shape).BroadcastsInDim ⟨2, ![A, 1]⟩ ![0]) (p : Fin A) (z : Fin 1) :
    broadcastInDim ⟨2, ![A, 1]⟩ ![0] hcol v (ix2 p z) = v (ix1 p) :=
  broadcastInDim_apply ![0] hcol v (ix2 p z) (ix1 p) (fun a => by
    match a with
    | ⟨0, _⟩ =>
      show p.val = if A = 1 then 0 else p.val
      split
      · have := p.isLt; omega
      · rfl)

/-- A column [A, 1] spread over C columns, at (p, q), is the column at (p, 0). -/
theorem hostColMat_apply {α : Type} (c : (⟨2, ![A, 1]⟩ : Shape).Idx → α)
    (hbc : (⟨2, ![A, 1]⟩ : Shape).BroadcastsInDim ⟨2, ![A, C]⟩ ![0, 1]) (p : Fin A) (q : Fin C) :
    broadcastInDim ⟨2, ![A, C]⟩ ![0, 1] hbc c (ix2 p q) = c (ix2 p (0 : Fin 1)) :=
  broadcastInDim_apply ![0, 1] hbc c (ix2 p q) (ix2 p (0 : Fin 1)) (fun a => by
    match a with
    | ⟨0, _⟩ =>
      show p.val = if A = 1 then 0 else p.val
      split
      · have := p.isLt; omega
      · rfl
    | ⟨1, _⟩ => simp)

/-- The host's row maxima: the reduce of max from -inf over axis 1, then one more maximum against the spread -inf,
    which changes nothing: at p the maximum of row p. -/
theorem hostRowMax_apply (z : FVec Ideal ⟨2, ![A, C]⟩ .f32)
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel) (hbz : (⟨0, ![]⟩ : Shape).BroadcastsInDim ⟨1, ![A]⟩ ![]) (p : Fin A) :
    maximumf (broadcastInDim ⟨1, ![A]⟩ ![] hbz (constant (F := Ideal) ⟨0, ![]⟩ .f32 0xFF800000#32))
        (Host.reduce FloatOps.maximumf z (constant (F := Ideal) ⟨0, ![]⟩ .f32 0xFF800000#32) hredTo hu) (ix1 p)
      = rowMax z p := by
  show max (broadcastInDim ⟨1, ![A]⟩ ![] hbz (constant (F := Ideal) ⟨0, ![]⟩ .f32 0xFF800000#32) (ix1 p))
      (Host.reduce FloatOps.maximumf z (constant (F := Ideal) ⟨0, ![]⟩ .f32 0xFF800000#32) hredTo hu (ix1 p)) = _
  rw [broadcastInDim_apply ![] hbz (constant (F := Ideal) ⟨0, ![]⟩ .f32 0xFF800000#32) (ix1 p) ix0 (fun a => a.elim0),
    Host.reduce_eq_fold_single FloatOps.maximumf z _ hredTo hred hu (ix1 p)]
  show max (Ideal.ofBits .f32 0xFF800000#32)
      ((Finset.univ : Finset (Fin C)).fold max (Ideal.ofBits .f32 0xFF800000#32) (z ∘ hred.lift (ix1 p))) = _
  rw [ofBits_negInf_f32, max_bot_left]
  refine congrArg ((Finset.univ : Finset (Fin C)).fold max ⊥) (funext fun k => congrArg z ?_)
  funext a
  match a with
  | ⟨0, _⟩ => rfl
  | ⟨1, _⟩ => rfl

/-- The host's row sums: the add-reduce from zero over axis 1, at p, is the sum of row p. -/
theorem hostRowSum_apply (e : FVec Ideal ⟨2, ![A, C]⟩ .f32)
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel) (p : Fin A) :
    Host.reduceAdd e (constant (F := Ideal) ⟨0, ![]⟩ .f32 0x00000000#32) hredTo hu (ix1 p)
      = ∑ k : Fin C, (e (ix2 p k) : EReal) := by
  show Ideal.hostReduceAdd hredTo e (Ideal.ofBits .f32 0x00000000#32) (ix1 p) = _
  rw [Ideal.hostReduceAdd_single hredTo hred, Ideal.ofBits_zero_f32, zero_add]
  refine Finset.sum_congr rfl fun k _ => congrArg e ?_
  funext a
  match a with
  | ⟨0, _⟩ => rfl
  | ⟨1, _⟩ => rfl

/-- The log-softmax of the whole array in the host's spelling. -/
theorem host_logSoftmax_of (z : FVec Ideal ⟨2, ![A, C]⟩ .f32)
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel)
    (hbz : (⟨0, ![]⟩ : Shape).BroadcastsInDim ⟨1, ![A]⟩ ![])
    (hcol : (⟨1, ![A]⟩ : Shape).BroadcastsInDim ⟨2, ![A, 1]⟩ ![0])
    (hbc : (⟨2, ![A, 1]⟩ : Shape).BroadcastsInDim ⟨2, ![A, C]⟩ ![0, 1]) :
    subf
      (subf z
        (broadcastInDim ⟨2, ![A, C]⟩ ![0, 1] hbc (broadcastInDim ⟨2, ![A, 1]⟩ ![0] hcol
          (maximumf (broadcastInDim ⟨1, ![A]⟩ ![] hbz (constant (F := Ideal) ⟨0, ![]⟩ .f32 0xFF800000#32))
            (Host.reduce FloatOps.maximumf z (constant (F := Ideal) ⟨0, ![]⟩ .f32 0xFF800000#32) hredTo hu)))))
      (broadcastInDim ⟨2, ![A, C]⟩ ![0, 1] hbc (Host.log (broadcastInDim ⟨2, ![A, 1]⟩ ![0] hcol
        (Host.reduceAdd
          (Host.exp (subf z
            (broadcastInDim ⟨2, ![A, C]⟩ ![0, 1] hbc (broadcastInDim ⟨2, ![A, 1]⟩ ![0] hcol
              (maximumf (broadcastInDim ⟨1, ![A]⟩ ![] hbz (constant (F := Ideal) ⟨0, ![]⟩ .f32 0xFF800000#32))
                (Host.reduce FloatOps.maximumf z (constant (F := Ideal) ⟨0, ![]⟩ .f32 0xFF800000#32) hredTo hu))))))
          (constant (F := Ideal) ⟨0, ![]⟩ .f32 0x00000000#32) hredTo hu))))
      = logSoftmax z := by
  have hm : broadcastInDim ⟨2, ![A, C]⟩ ![0, 1] hbc (broadcastInDim ⟨2, ![A, 1]⟩ ![0] hcol
      (maximumf (broadcastInDim ⟨1, ![A]⟩ ![] hbz (constant (F := Ideal) ⟨0, ![]⟩ .f32 0xFF800000#32))
        (Host.reduce FloatOps.maximumf z (constant (F := Ideal) ⟨0, ![]⟩ .f32 0xFF800000#32) hredTo hu)))
      = fun i => rowMax z (i 0) := by
    funext i
    obtain ⟨p, q, rfl⟩ : ∃ (p : Fin A) (q : Fin C), i = ix2 p q := ⟨i 0, i 1, eq_ix2 i⟩
    rw [hostColMat_apply _ hbc p q, hostCol_apply _ hcol p 0]
    exact hostRowMax_apply z hredTo hred hu hbz p
  rw [hm]
  funext i
  obtain ⟨p, q, rfl⟩ : ∃ (p : Fin A) (q : Fin C), i = ix2 p q := ⟨i 0, i 1, eq_ix2 i⟩
  show (z (ix2 p q) - rowMax z p)
      - broadcastInDim ⟨2, ![A, C]⟩ ![0, 1] hbc (Host.log (broadcastInDim ⟨2, ![A, 1]⟩ ![0] hcol
          (Host.reduceAdd (Host.exp (subf z fun i => rowMax z (i 0)))
            (constant (F := Ideal) ⟨0, ![]⟩ .f32 0x00000000#32) hredTo hu))) (ix2 p q) = _
  rw [hostColMat_apply _ hbc p q]
  show (z (ix2 p q) - rowMax z p)
      - Ideal.log (broadcastInDim ⟨2, ![A, 1]⟩ ![0] hcol
          (Host.reduceAdd (Host.exp (subf z fun i => rowMax z (i 0)))
            (constant (F := Ideal) ⟨0, ![]⟩ .f32 0x00000000#32) hredTo hu) (ix2 p (0 : Fin 1))) = _
  rw [hostCol_apply _ hcol p 0, hostRowSum_apply _ hredTo hred hu p]
  rfl

/-- The host's spelling on the whole array: the row spread by broadcast_in_dim and added; the row maxima by a reduce
    from -inf, then one more maximum against the spread -inf; spread to a column and over the columns; the shifted values'
    exponentials summed by a reduce from zero, spread to a column, their logarithm spread and subtracted. -/
theorem host_logSoftmax (a : FVec Ideal ⟨2, ![A, C]⟩ .f32) (R : FVec Ideal ⟨2, ![1, C]⟩ .f32)
    (hb : (⟨2, ![1, C]⟩ : Shape).BroadcastsInDim ⟨2, ![A, C]⟩ ![0, 1])
    (hredTo : (⟨2, ![A, C]⟩ : Shape).ReducesTo [1] ⟨1, ![A]⟩) (hred : (⟨2, ![A, C]⟩ : Shape).Reduces [1] ⟨1, ![A]⟩)
    (hu : 0 < (⟨0, ![]⟩ : Shape).numel)
    (hbz : (⟨0, ![]⟩ : Shape).BroadcastsInDim ⟨1, ![A]⟩ ![])
    (hcol : (⟨1, ![A]⟩ : Shape).BroadcastsInDim ⟨2, ![A, 1]⟩ ![0])
    (hbc : (⟨2, ![A, 1]⟩ : Shape).BroadcastsInDim ⟨2, ![A, C]⟩ ![0, 1]) :
    subf
      (subf (addf a (broadcastInDim ⟨2, ![A, C]⟩ ![0, 1] hb R))
        (broadcastInDim ⟨2, ![A, C]⟩ ![0, 1] hbc (broadcastInDim ⟨2, ![A, 1]⟩ ![0] hcol
          (maximumf (broadcastInDim ⟨1, ![A]⟩ ![] hbz (constant (F := Ideal) ⟨0, ![]⟩ .f32 0xFF800000#32))
            (Host.reduce FloatOps.maximumf (addf a (broadcastInDim ⟨2, ![A, C]⟩ ![0, 1] hb R))
              (constant (F := Ideal) ⟨0, ![]⟩ .f32 0xFF800000#32) hredTo hu)))))
      (broadcastInDim ⟨2, ![A, C]⟩ ![0, 1] hbc (Host.log (broadcastInDim ⟨2, ![A, 1]⟩ ![0] hcol
        (Host.reduceAdd
          (Host.exp (subf (addf a (broadcastInDim ⟨2, ![A, C]⟩ ![0, 1] hb R))
            (broadcastInDim ⟨2, ![A, C]⟩ ![0, 1] hbc (broadcastInDim ⟨2, ![A, 1]⟩ ![0] hcol
              (maximumf (broadcastInDim ⟨1, ![A]⟩ ![] hbz (constant (F := Ideal) ⟨0, ![]⟩ .f32 0xFF800000#32))
                (Host.reduce FloatOps.maximumf (addf a (broadcastInDim ⟨2, ![A, C]⟩ ![0, 1] hb R))
                  (constant (F := Ideal) ⟨0, ![]⟩ .f32 0xFF800000#32) hredTo hu))))))
          (constant (F := Ideal) ⟨0, ![]⟩ .f32 0x00000000#32) hredTo hu))))
      = logSoftmax (addRow a R) := by
  rw [host_addRow a R hb]
  exact host_logSoftmax_of (addRow a R) hredTo hred hu hbz hcol hbc

end Cert.Gcn

end
-- ==== Proof.Region2.lean ====
/-
  The third region (bias and row-wise log-softmax, 2000 rows a point): its result array as ONE function of the arrays it reads.

  The grid has fifty points. At point t the body reads rows 2000·t … 2000·t + 1999 of a (all 7 columns) and the one row
  b2, adds b2 to every row and takes the log-softmax of each row; the [2000, 7] block it leaves is written back to rows
  2000·t … 2000·t + 1999 of the result. The log-softmax of a row depends on that row only, so the block is those rows of
  logSoftmax (a + b2); the fifty row ranges fill [0, 100000), so the result array ends holding logSoftmax (a + b2).
-/
import proofs.«148941_j12592844112334_1_alg».proof.Proof.Gen.KernelIdeal.Frame
import proofs.«148941_j12592844112334_1_alg».proof.Proof.LibDenseRows
import proofs.«148941_j12592844112334_1_alg».proof.Proof.LibLogSoftmaxRows

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

namespace LogSoftmaxOut

/-! ## The body on a block -/

/-- The body's value on a block: the one row added to every row, then each row's log-softmax. -/
theorem body_block (x0 : Vec Ideal S2000x7 .f32) (x1 : Vec Ideal S1x7 .f32) :
    k2_pay1 (F := Ideal) x0 x1 = Cert.Gcn.logSoftmax (Cert.Gcn.addRow x0 x1) := by
  unfold k2_pay1
  exact Cert.Gcn.kernel_logSoftmax x0 x1 _ _ _ _ _ _

/-- A block of rows of the log-softmax of a + r, index by index: where the block's row p of a is row ρ p of Z and the
    block of r is R, the block's entry (j₀, j₁) is entry (ρ j₀, j₁) of logSoftmax (Z + R). -/
theorem logSoftmax_block {A B C : Nat} (Z : Cert.Gcn.Mat A C) (R : Cert.Gcn.Mat 1 C) (zb : Cert.Gcn.Mat B C)
    (rb : Cert.Gcn.Mat 1 C) (ρ : Fin B → Fin A) (hz : ∀ p k, zb (ix2 p k) = Z (ix2 (ρ p) k))
    (hr : ∀ q, rb (ix2 (0 : Fin 1) q) = R (ix2 (0 : Fin 1) q))
    (j : (⟨2, ![B, C]⟩ : Shape).Idx) (i : (⟨2, ![A, C]⟩ : Shape).Idx)
    (hrow : (i 0 : Fin A) = ρ (j 0)) (hcol : (i 1 : Fin C) = j 1) :
    Cert.Gcn.logSoftmax (Cert.Gcn.addRow zb rb) j = Cert.Gcn.logSoftmax (Cert.Gcn.addRow Z R) i := by
  rw [eq_ix2 j, eq_ix2 i, hrow, hcol]
  exact Cert.Gcn.logSoftmax_addRow_rows Z R zb rb ρ hz hr (j 0) (j 1)

/-! ## Where each window's block sits -/

theorem corner : (![0, 0] : Fin 2 → Nat) = fun _ => 0 := funext fun a => by fin_cases a <;> rfl

/-- The grid has fifty points. -/
theorem fifty : cfg2.N = 50 := by decide

/-- The block indices over the grid: a's row block is the result's, both at the one column block; b2's is its one
    block; the result's row block is block t, one of the fifty. -/
theorem block_at : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ t.val ≤ 49 :=
  (by decide +kernel : ∀ t : Fin grid2.N, _)

/-- Row p of point t's block is row 2000·t + p of the array. -/
def rowAt (t : Fin cfg2.N) (p : Fin 2000) : Fin 100000 :=
  ⟨2000 * t.val + p.val, by obtain ⟨-, -, -, -, -, -, ht⟩ := block_at t; have := p.isLt; omega⟩

/-- Point t's block of a: rows 2000·t + p of a, every column. -/
theorem rows_read (c : Dev nD) (t : Fin cfg2.N) (p : Fin 2000) (k : Fin 7) :
    (iblk2 V c 0 t : Cert.Gcn.Mat 2000 7) (ix2 p k) = (V c main_v60 : Cert.Gcn.Mat 100000 7) (ix2 (rowAt t p) k) := by
  obtain ⟨e0, e1, -, -, e4, -, -⟩ := block_at t
  show V c main_v60 (((cfg2.win 0).blk t).view.emb (ix2 p k)) = V c main_v60 (ix2 (rowAt t p) k)
  refine congrArg (V c main_v60) (funext fun a => Fin.ext ?_)
  match a with
  | ⟨0, _⟩ => show win2_0.index t (0 : Fin 2) * 2000 + 1 * p.val = 2000 * t.val + p.val; omega
  | ⟨1, _⟩ => show win2_0.index t (1 : Fin 2) * 7 + 1 * k.val = k.val; omega

/-- Point t's block of b2: the whole row. -/
theorem bias_read (c : Dev nD) (t : Fin cfg2.N) (q : Fin 7) :
    (iblk2 V c 1 t : Cert.Gcn.Mat 1 7) (ix2 (0 : Fin 1) q) = (V c main_v61 : Cert.Gcn.Mat 1 7) (ix2 (0 : Fin 1) q) := by
  obtain ⟨-, -, e2, e3, -⟩ := block_at t
  show V c main_v61 (((cfg2.win 1).blk t).view.emb (ix2 (0 : Fin 1) q)) = V c main_v61 (ix2 (0 : Fin 1) q)
  refine congrArg (V c main_v61) (funext fun a => Fin.ext ?_)
  match a with
  | ⟨0, _⟩ => show win2_1.index t (0 : Fin 2) * 1 + 1 * 0 = 0; omega
  | ⟨1, _⟩ => show win2_1.index t (1 : Fin 2) * 7 + 1 * q.val = q.val; omega

/-! ## What a point writes back -/

/-- What point t writes back is block t of the log-softmax of a + b2, of the two arrays as the region finds them. -/
theorem written_back (c : Dev nD) (t : Fin cfg2.N) :
    (dat2 V c).flushed 2 t
      = ((cfg2.win 2).blk t).view.read (Elt Ideal)
          (Cert.Gcn.logSoftmax (Cert.Gcn.addRow (V c main_v60) (V c main_v61))) := by
  show (cfg2.win 2).cut (grid2.coords t) ((dat2 V c).after 2 t) = _
  rw [after2_2]
  unfold out2_2
  rw [View.canon_unit_zero corner]
  simp only [View.ld_unit_zero (S := S2000x7) corner, View.ld_unit_zero (S := S1x7) corner]
  rw [body_block]
  obtain ⟨-, -, -, -, e4, e5, -⟩ := block_at t
  funext j
  show Cert.Gcn.logSoftmax (Cert.Gcn.addRow (iblk2 V c 0 t) (iblk2 V c 1 t)) j
    = Cert.Gcn.logSoftmax (Cert.Gcn.addRow (V c main_v60) (V c main_v61)) (((cfg2.win 2).blk t).view.emb j)
  refine logSoftmax_block _ _ _ _ (rowAt t) (rows_read V c t) (bias_read V c t) j _ (Fin.ext ?_) (Fin.ext ?_)
  · show win2_2.index t (0 : Fin 2) * 2000 + 1 * (j 0).val = 2000 * t.val + (j 0).val
    omega
  · show win2_2.index t (1 : Fin 2) * 7 + 1 * (j 1).val = (j 1).val
    omega

/-! ## The blocks fill the array -/

/-- An index of the result is in point t's block iff each coordinate is in the block's range on its axis. -/
theorem mem_block (t : Fin cfg2.N) (i : S100000x7.Idx) :
    i ∈ ((cfg2.win 2).blk t).view.set ↔ ∀ a : Fin 2, win2_2.index t a * S2000x7.size a ≤ (i a).val
      ∧ (i a).val < win2_2.index t a * S2000x7.size a + S2000x7.size a := by
  show i ∈ ((View.whole main_v62).slice (win2_2.rect t)).set ↔ _
  rw [View.set_slice_whole, Rect.mem_set_unit]
  exact Iff.rfl

/-- Row r of the result is in the block of point r / 2000 (50 · 2000 = 100000 rows in all), and that point writes back. -/
theorem every_row_written (i : S100000x7.Idx) :
    ∃ t : Fin cfg2.N, (cfg2.win 2).flush t = true ∧ i ∈ ((cfg2.win 2).blk t).view.set := by
  have hr : (i 0).val < 100000 := (i 0).isLt
  have hk : (i 1).val < 7 := (i 1).isLt
  have hpt : (i 0).val / 2000 < cfg2.N := by rw [fifty]; omega
  obtain ⟨-, -, -, -, e4, e5, -⟩ := block_at ⟨(i 0).val / 2000, hpt⟩
  have e4' : win2_2.index ⟨(i 0).val / 2000, hpt⟩ (0 : Fin 2) = (i 0).val / 2000 := e4
  refine ⟨⟨(i 0).val / 2000, hpt⟩, flush2_2 _, ?_⟩
  rw [mem_block]
  intro a
  match a with
  | ⟨0, _⟩ =>
    show win2_2.index ⟨(i 0).val / 2000, hpt⟩ (0 : Fin 2) * 2000 ≤ (i 0).val
      ∧ (i 0).val < win2_2.index ⟨(i 0).val / 2000, hpt⟩ (0 : Fin 2) * 2000 + 2000
    omega
  | ⟨1, _⟩ =>
    show win2_2.index ⟨(i 0).val / 2000, hpt⟩ (1 : Fin 2) * 7 ≤ (i 1).val
      ∧ (i 1).val < win2_2.index ⟨(i 0).val / 2000, hpt⟩ (1 : Fin 2) * 7 + 7
    omega

end LogSoftmaxOut

/-! ## The array -/

/-- The third region's result array after its fifty points: the row-wise log-softmax of a + b2 of the two arrays it
    read, whatever the contents `V` the region was entered at. -/
theorem final2 (c : Dev nD) :
    (dat2 V c).arrAt 2 cfg2.N
      = Cert.Gcn.logSoftmax (Cert.Gcn.addRow (V c main_v60) (V c main_v61)) :=
  (dat2 V c).arrAt_eq_of_cover 2 (Cert.Gcn.logSoftmax (Cert.Gcn.addRow (V c main_v60) (V c main_v61)))
    (fun t _ => LogSoftmaxOut.written_back V c t) LogSoftmaxOut.every_row_written

end Cert.KernelIdeal.RegionValue

end
-- ==== Proof.RefStages.lean ====
/-
  The reference's dense stages, in the vocabulary of the whole-array functions: its first product is x·w1; a bias
  vector spread into one row is the vector recast to one row; its second product is relu (a + b1)·w2 of the first
  aggregation a; its result is the row-wise log-softmax of the second aggregation plus b2.
-/
import proofs.«148941_j12592844112334_1_alg».proof.Proof.RefRead
import proofs.«148941_j12592844112334_1_alg».proof.Proof.LibDenseRows
import proofs.«148941_j12592844112334_1_alg».proof.Proof.LibBiasRelu
import proofs.«148941_j12592844112334_1_alg».proof.Proof.LibLogSoftmaxRows

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.ReadP

theorem v32_eq (x0 : (⟨S100000x512, .f32⟩ : BufTy).Contents (Elt Ideal)) (x2 : (⟨S512x16, .f32⟩ : BufTy).Contents (Elt Ideal)) :
    val_main_v32 (F := Ideal) x0 x2 = Cert.Gcn.lin x0 x2 := by
  unfold val_main_v32
  exact Cert.Gcn.dotGeneral_eq_lin _ x0 x2

theorem v46_eq (x3 : (⟨S16, .f32⟩ : BufTy).Contents (Elt Ideal)) (h : S16.ShapeCasts S1x16) :
    val_main_v46 (F := Ideal) x3 = shapeCast S1x16 x3 h := by
  unfold val_main_v46
  exact (Cert.Gcn.rowCast_eq_rowBcast x3 h bcast_S16_S1x16_1).symm

theorem v50_eq (x0 : (⟨S100000x512, .f32⟩ : BufTy).Contents (Elt Ideal)) (x1 : (⟨S2x3200000, .i32⟩ : BufTy).Contents (Elt Ideal)) (x2 : (⟨S512x16, .f32⟩ : BufTy).Contents (Elt Ideal))
    (x3 : (⟨S16, .f32⟩ : BufTy).Contents (Elt Ideal)) (x4 : (⟨S16x7, .f32⟩ : BufTy).Contents (Elt Ideal)) :
    val_main_v50 (F := Ideal) x0 x1 x2 x3 x4
      = Cert.Gcn.lin (Cert.Gcn.biasRelu (val_main_v45 (F := Ideal) x0 x1 x2) (val_main_v46 (F := Ideal) x3)) x4 := by
  unfold val_main_v50 val_main_v49 val_main_v48 val_main_v47 val_main_call1_v0 val_main_call1_cst
  generalize val_main_v45 (F := Ideal) x0 x1 x2 = a
  generalize val_main_v46 (F := Ideal) x3 = r
  exact (Cert.Gcn.dotGeneral_eq_lin _ _ x4).trans
    (congrArg (fun y => Cert.Gcn.lin y x4) (Cert.Gcn.host_biasRelu a r bcast_S1x16_S100000x16_0_1 bcast_S_S100000x16))

theorem v64_eq (x5 : (⟨S7, .f32⟩ : BufTy).Contents (Elt Ideal)) (h : S7.ShapeCasts S1x7) :
    val_main_v64 (F := Ideal) x5 = shapeCast S1x7 x5 h := by
  unfold val_main_v64
  exact (Cert.Gcn.rowCast_eq_rowBcast x5 h bcast_S7_S1x7_1).symm

theorem v67_eq (x0 : (⟨S100000x512, .f32⟩ : BufTy).Contents (Elt Ideal)) (x1 : (⟨S2x3200000, .i32⟩ : BufTy).Contents (Elt Ideal)) (x2 : (⟨S512x16, .f32⟩ : BufTy).Contents (Elt Ideal))
    (x3 : (⟨S16, .f32⟩ : BufTy).Contents (Elt Ideal)) (x4 : (⟨S16x7, .f32⟩ : BufTy).Contents (Elt Ideal)) (x5 : (⟨S7, .f32⟩ : BufTy).Contents (Elt Ideal)) :
    val_main_v67 (F := Ideal) x0 x1 x2 x3 x4 x5
      = Cert.Gcn.logSoftmax (Cert.Gcn.addRow (val_main_v63 (F := Ideal) x0 x1 x2 x3 x4) (val_main_v64 (F := Ideal) x5)) := by
  unfold val_main_v67 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1 val_main_v66 val_main_v65
  generalize val_main_v63 (F := Ideal) x0 x1 x2 x3 x4 = a
  generalize val_main_v64 (F := Ideal) x5 = r
  exact Cert.Gcn.host_logSoftmax a r bcast_S1x7_S100000x7_0_1 reducesTo_S100000x7_S100000_d1 (by decide) h_S_
    bcast_S_S100000 bcast_S100000_S100000x1_0 bcast_S100000x1_S100000x7_0_1

end Cert.ReferenceIdeal.Stages

end
-- ==== Proof.KernelValue.lean ====
/-
  The kernel program's result array as the reference's last stage of the launch arguments.  The buffer contents at each
  boundary of the program are followed from the launch to the return: the first host stretch leaves the edge lists and
  the edge weights, the first region the product x·w1, the second stretch its aggregation and the first bias as a row,
  the second region relu (· + b1)·w2, the third stretch its aggregation and the second bias as a row, the third region
  the row-wise log-softmax of (· + b2).  At every boundary the contents are the reference's stage of the same name.
-/
import proofs.«148941_j12592844112334_1_alg».proof.Proof.Gen.KernelIdeal.Frame
import proofs.«148941_j12592844112334_1_alg».proof.Proof.HostStretches
import proofs.«148941_j12592844112334_1_alg».proof.Proof.Region0
import proofs.«148941_j12592844112334_1_alg».proof.Proof.Region1
import proofs.«148941_j12592844112334_1_alg».proof.Proof.Region2
import proofs.«148941_j12592844112334_1_alg».proof.Proof.RefStages

set_option maxRecDepth 16384

noncomputable section

namespace Cert.KernelIdeal.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.HostValue Cert.KernelIdeal.RegionValue

variable (m : (ℓ : Loc nD τ sig) → Buf (Elt Ideal) ℓ) (ρ : Dev nD → PrngReg)

/-- The launch contents of the six argument arrays. -/
abbrev a0 (c : Dev nD) : (⟨S100000x512, .f32⟩ : BufTy).Contents (Elt Ideal) := m ((c : Thread nD τ).loc main_arg0)
abbrev a1 (c : Dev nD) : (⟨S2x3200000, .i32⟩ : BufTy).Contents (Elt Ideal) := m ((c : Thread nD τ).loc main_arg1)
abbrev a2 (c : Dev nD) : (⟨S512x16, .f32⟩ : BufTy).Contents (Elt Ideal) := m ((c : Thread nD τ).loc main_arg2)
abbrev a3 (c : Dev nD) : (⟨S16, .f32⟩ : BufTy).Contents (Elt Ideal) := m ((c : Thread nD τ).loc main_arg3)
abbrev a4 (c : Dev nD) : (⟨S16x7, .f32⟩ : BufTy).Contents (Elt Ideal) := m ((c : Thread nD τ).loc main_arg4)
abbrev a5 (c : Dev nD) : (⟨S7, .f32⟩ : BufTy).Contents (Elt Ideal) := m ((c : Thread nD τ).loc main_arg5)

/-! ## The first region's entry -/

theorem W3_v3 (c : Dev nD) : W3 m ρ c (Proc.devRef .tc main_v3) = Cert.ReferenceIdeal.ReadP.val_main_v3 (F := Ideal) (a1 m c) := entry_v3 (W0 m ρ c)
theorem W3_v6 (c : Dev nD) : W3 m ρ c (Proc.devRef .tc main_v6) = Cert.ReferenceIdeal.ReadP.val_main_v6 (F := Ideal) (a1 m c) := entry_v6 (W0 m ρ c)
theorem W3_v31 (c : Dev nD) : W3 m ρ c (Proc.devRef .tc main_v31) = Cert.ReferenceIdeal.ReadP.val_main_v31 (F := Ideal) (a1 m c) := entry_v31 (W0 m ρ c)
theorem W3_arg0 (c : Dev nD) : W3 m ρ c (Proc.devRef .tc main_arg0) = a0 m c := entry_keep_main_arg0 (W0 m ρ c)
theorem W3_arg2 (c : Dev nD) : W3 m ρ c (Proc.devRef .tc main_arg2) = a2 m c := entry_keep_main_arg2 (W0 m ρ c)
theorem W3_arg3 (c : Dev nD) : W3 m ρ c (Proc.devRef .tc main_arg3) = a3 m c := entry_keep_main_arg3 (W0 m ρ c)
theorem W3_arg4 (c : Dev nD) : W3 m ρ c (Proc.devRef .tc main_arg4) = a4 m c := entry_keep_main_arg4 (W0 m ρ c)
theorem W3_arg5 (c : Dev nD) : W3 m ρ c (Proc.devRef .tc main_arg5) = a5 m c := entry_keep_main_arg5 (W0 m ρ c)

/-! ## The first region's exit: the product x·w1 -/

theorem W4_v32 (c : Dev nD) : W4 m ρ c (Proc.devRef .tc main_v32) = Cert.ReferenceIdeal.ReadP.val_main_v32 (F := Ideal) (a0 m c) (a2 m c) := by
  refine (W4_arr m ρ c 2).trans ((final0 (V3 m ρ) c).trans ?_)
  rw [show V3 m ρ c main_arg0 = a0 m c from W3_arg0 m ρ c, show V3 m ρ c main_arg2 = a2 m c from W3_arg2 m ρ c]
  exact (Cert.ReferenceIdeal.Stages.v32_eq _ _).symm

theorem W4_v3 (c : Dev nD) : W4 m ρ c (Proc.devRef .tc main_v3) = Cert.ReferenceIdeal.ReadP.val_main_v3 (F := Ideal) (a1 m c) :=
  (W4_of_ne m ρ c main_v3 (by decide)).trans (W3_v3 m ρ c)
theorem W4_v6 (c : Dev nD) : W4 m ρ c (Proc.devRef .tc main_v6) = Cert.ReferenceIdeal.ReadP.val_main_v6 (F := Ideal) (a1 m c) :=
  (W4_of_ne m ρ c main_v6 (by decide)).trans (W3_v6 m ρ c)
theorem W4_v31 (c : Dev nD) : W4 m ρ c (Proc.devRef .tc main_v31) = Cert.ReferenceIdeal.ReadP.val_main_v31 (F := Ideal) (a1 m c) :=
  (W4_of_ne m ρ c main_v31 (by decide)).trans (W3_v31 m ρ c)
theorem W4_arg3 (c : Dev nD) : W4 m ρ c (Proc.devRef .tc main_arg3) = a3 m c := (W4_of_ne m ρ c main_arg3 (by decide)).trans (W3_arg3 m ρ c)
theorem W4_arg4 (c : Dev nD) : W4 m ρ c (Proc.devRef .tc main_arg4) = a4 m c := (W4_of_ne m ρ c main_arg4 (by decide)).trans (W3_arg4 m ρ c)
theorem W4_arg5 (c : Dev nD) : W4 m ρ c (Proc.devRef .tc main_arg5) = a5 m c := (W4_of_ne m ρ c main_arg5 (by decide)).trans (W3_arg5 m ρ c)

/-! ## The second region's entry: the first aggregation, the first bias as a row -/

theorem W5_v45 (c : Dev nD) : W5 m ρ c (Proc.devRef .tc main_v45) = Cert.ReferenceIdeal.ReadP.val_main_v45 (F := Ideal) (a0 m c) (a1 m c) (a2 m c) :=
  mid1_v45 (W4 m ρ c) _ _ _ (W4_v3 m ρ c) (W4_v6 m ρ c) (W4_v31 m ρ c) (W4_v32 m ρ c)
theorem W5_v46 (c : Dev nD) : W5 m ρ c (Proc.devRef .tc main_v46) = Cert.ReferenceIdeal.ReadP.val_main_v46 (F := Ideal) (a3 m c) := by
  refine (mid1_v46 (W4 m ρ c)).trans ?_
  rw [W4_arg3 m ρ c]
  exact (Cert.ReferenceIdeal.Stages.v46_eq _ _).symm
theorem W5_v3 (c : Dev nD) : W5 m ρ c (Proc.devRef .tc main_v3) = Cert.ReferenceIdeal.ReadP.val_main_v3 (F := Ideal) (a1 m c) := (mid1_keep_main_v3 (W4 m ρ c)).trans (W4_v3 m ρ c)
theorem W5_v6 (c : Dev nD) : W5 m ρ c (Proc.devRef .tc main_v6) = Cert.ReferenceIdeal.ReadP.val_main_v6 (F := Ideal) (a1 m c) := (mid1_keep_main_v6 (W4 m ρ c)).trans (W4_v6 m ρ c)
theorem W5_v31 (c : Dev nD) : W5 m ρ c (Proc.devRef .tc main_v31) = Cert.ReferenceIdeal.ReadP.val_main_v31 (F := Ideal) (a1 m c) := (mid1_keep_main_v31 (W4 m ρ c)).trans (W4_v31 m ρ c)
theorem W5_arg4 (c : Dev nD) : W5 m ρ c (Proc.devRef .tc main_arg4) = a4 m c := (mid1_keep_main_arg4 (W4 m ρ c)).trans (W4_arg4 m ρ c)
theorem W5_arg5 (c : Dev nD) : W5 m ρ c (Proc.devRef .tc main_arg5) = a5 m c := (mid1_keep_main_arg5 (W4 m ρ c)).trans (W4_arg5 m ρ c)

/-! ## The second region's exit: relu (a + b1)·w2 -/

theorem W6_v47 (c : Dev nD) :
    W6 m ρ c (Proc.devRef .tc main_v47) = Cert.ReferenceIdeal.ReadP.val_main_v50 (F := Ideal) (a0 m c) (a1 m c) (a2 m c) (a3 m c) (a4 m c) := by
  refine (W6_arr m ρ c 3).trans ((final1 (V5 m ρ) c).trans ?_)
  rw [show V5 m ρ c main_v45 = _ from W5_v45 m ρ c, show V5 m ρ c main_v46 = _ from W5_v46 m ρ c,
    show V5 m ρ c main_arg4 = a4 m c from W5_arg4 m ρ c]
  exact (Cert.ReferenceIdeal.Stages.v50_eq _ _ _ _ _).symm

theorem W6_v3 (c : Dev nD) : W6 m ρ c (Proc.devRef .tc main_v3) = Cert.ReferenceIdeal.ReadP.val_main_v3 (F := Ideal) (a1 m c) := (W6_of_ne m ρ c main_v3 (by decide)).trans (W5_v3 m ρ c)
theorem W6_v6 (c : Dev nD) : W6 m ρ c (Proc.devRef .tc main_v6) = Cert.ReferenceIdeal.ReadP.val_main_v6 (F := Ideal) (a1 m c) := (W6_of_ne m ρ c main_v6 (by decide)).trans (W5_v6 m ρ c)
theorem W6_v31 (c : Dev nD) : W6 m ρ c (Proc.devRef .tc main_v31) = Cert.ReferenceIdeal.ReadP.val_main_v31 (F := Ideal) (a1 m c) := (W6_of_ne m ρ c main_v31 (by decide)).trans (W5_v31 m ρ c)
theorem W6_arg5 (c : Dev nD) : W6 m ρ c (Proc.devRef .tc main_arg5) = a5 m c := (W6_of_ne m ρ c main_arg5 (by decide)).trans (W5_arg5 m ρ c)

/-! ## The third region's entry: the second aggregation, the second bias as a row -/

theorem W7_v60 (c : Dev nD) :
    W7 m ρ c (Proc.devRef .tc main_v60) = Cert.ReferenceIdeal.ReadP.val_main_v63 (F := Ideal) (a0 m c) (a1 m c) (a2 m c) (a3 m c) (a4 m c) :=
  mid2_v60 (W6 m ρ c) _ _ _ _ _ (W6_v3 m ρ c) (W6_v6 m ρ c) (W6_v31 m ρ c) (W6_v47 m ρ c)
theorem W7_v61 (c : Dev nD) : W7 m ρ c (Proc.devRef .tc main_v61) = Cert.ReferenceIdeal.ReadP.val_main_v64 (F := Ideal) (a5 m c) := by
  refine (mid2_v61 (W6 m ρ c)).trans ?_
  rw [W6_arg5 m ρ c]
  exact (Cert.ReferenceIdeal.Stages.v64_eq _ _).symm

/-! ## The return: the row-wise log-softmax of (a + b2) -/

/-- The result buffer at the return holds the reference's last stage of the launch arguments. -/
theorem result_eq (c : Dev nD) :
    W8 m ρ c (Proc.devRef .tc main_v62)
      = Cert.ReferenceIdeal.ReadP.val_main_v67 (F := Ideal) (a0 m c) (a1 m c) (a2 m c) (a3 m c) (a4 m c) (a5 m c) := by
  refine (W8_arr m ρ c 2).trans ((final2 (V7 m ρ) c).trans ?_)
  rw [show V7 m ρ c main_v60 = _ from W7_v60 m ρ c, show V7 m ρ c main_v61 = _ from W7_v61 m ρ c]
  exact (Cert.ReferenceIdeal.Stages.v67_eq _ _ _ _ _ _).symm

end Cert.KernelIdeal.KernelValue

end
-- ==== Proof.lean ====
/-
  A two-layer graph convolution with self-loops and symmetric degree weights over 100000 nodes and 3.2 million edges,
  followed by a row-wise log-softmax: the kernel program against the plain reference, over the extended reals.

  Both programs build the same edge lists (the given edges and one loop per node), the same edge weights
  (1/sqrt deg at both ends of an edge, from a scatter-add of ones), and aggregate with the same operations: gather the
  rows at the sources, weigh them, scatter-add at the targets.  They differ only in how the three dense steps are
  computed.  The kernel program computes x·w1, relu (a + b1)·w2 and log-softmax (a + b2) in blocks of 2000 rows, with
  operands narrowed to bf16 (the identity on the extended reals), matrix-unit products into a zero accumulator (the
  same sum over k as the host's dot_general), each bias recast to one row and broadcast down the block, and lane
  reductions kept as columns; the reference computes them on whole arrays, with one more maximum against -inf in its
  log-softmax, which changes nothing.  Each dense step depends on a row of its input only, so the fifty blocks of a
  region's result array are the blocks of ONE whole-array function of the arrays the region reads, and at every
  boundary of the kernel program the buffers hold the reference's stage of the same name (Proof/KernelValue.lean).
  No law used here needs a finite input: the precondition is not opened.

  The frames of the two kernel programs are generated whole; the reference's frame is its run with the result dropped.
  The ideal pass rewrote nothing, so the sanctioned-idealization conjunct is trivial.
-/
import proofs.«148941_j12592844112334_1_alg».proof.Defs
import proofs.«148941_j12592844112334_1_alg».proof.Proof.Gen.Kernel
import proofs.«148941_j12592844112334_1_alg».proof.Proof.Gen.Kernel.Skeleton
import proofs.«148941_j12592844112334_1_alg».proof.Proof.Gen.Kernel.Launch
import proofs.«148941_j12592844112334_1_alg».proof.Proof.Gen.Kernel.Points
import proofs.«148941_j12592844112334_1_alg».proof.Proof.Gen.Kernel.Frame
import proofs.«148941_j12592844112334_1_alg».proof.Proof.Gen.KernelIdeal
import proofs.«148941_j12592844112334_1_alg».proof.Proof.Gen.KernelIdeal.Skeleton
import proofs.«148941_j12592844112334_1_alg».proof.Proof.Gen.KernelIdeal.Launch
import proofs.«148941_j12592844112334_1_alg».proof.Proof.Gen.KernelIdeal.Points
import proofs.«148941_j12592844112334_1_alg».proof.Proof.Gen.KernelIdeal.Frame
import proofs.«148941_j12592844112334_1_alg».proof.Proof.Gen.ReferenceIdeal
import proofs.«148941_j12592844112334_1_alg».proof.Proof.Gen.Pre_finite_inputs
import proofs.«148941_j12592844112334_1_alg».proof.Proof.RefRun
import proofs.«148941_j12592844112334_1_alg».proof.Proof.RefRead
import proofs.«148941_j12592844112334_1_alg».proof.Proof.KernelRun
import proofs.«148941_j12592844112334_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Over the extended reals, from memories agreeing on the six arguments, both programs end with the result array at
    the reference's last stage of those arguments: the kernel program by following its buffers from boundary to
    boundary, the reference by its run. -/
theorem algebraic : Cert.algebraic_KernelIdeal_ReferenceIdeal := by
  intro m ρ m' ρ' _ hagree
  refine ⟨fun c => Cert.ReferenceIdeal.ReadP.val_main_v67 (F := Ideal) (Cert.KernelIdeal.KernelValue.a0 m c) (Cert.KernelIdeal.KernelValue.a1 m c)
    (Cert.KernelIdeal.KernelValue.a2 m c) (Cert.KernelIdeal.KernelValue.a3 m c) (Cert.KernelIdeal.KernelValue.a4 m c) (Cert.KernelIdeal.KernelValue.a5 m c), ?_, ?_⟩
  · exact (θ_run Cert.KernelIdeal.defs _ _).mono
      (fun r h c => ⟨(h c).1.trans (Cert.KernelIdeal.KernelValue.result_eq m ρ c), (h c).2⟩)
      (Cert.KernelIdeal.GenV.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
